-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x270x1024 : Shape := ⟨3, ![256, 270, 1024]⟩
abbrev S256 : Shape := ⟨1, ![256]⟩
abbrev S128x270x270 : Shape := ⟨3, ![128, 270, 270]⟩
abbrev S_ : Shape := ⟨0, ![]⟩

class Facts : Prop where
  bcast_S_S256x270x1024 : S_.BroadcastsInDim S256x270x1024 (![] : Fin 0 → Fin S256x270x1024.rank)
  reducesTo_S256x270x1024_S_d0_1_2 : S256x270x1024.ReducesTo [0, 1, 2] S_
  h_S_ : 0 < S_.numel
  bcast_S_S128x270x270 : S_.BroadcastsInDim S128x270x270 (![] : Fin 0 → Fin S128x270x270.rank)
  reducesTo_S128x270x270_S_d0_1_2 : S128x270x270.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x270x1024 .f32) (main_arg1 : IVec S256 32) (main_arg2 : FVec F S128x270x270 .f32) : IVec S_ 1 :=
  let main_v0 : FVec F S256x270x1024 .f32 := Host.absf main_arg0
  let main_cst : FVec F S_ .f32 := constant S_ .f32 0x7F800000#32
  let main_v1 : FVec F S256x270x1024 .f32 := broadcastInDim S256x270x1024 ![] bcast_S_S256x270x1024 main_cst
  let main_v2 : IVec S256x270x1024 1 := cmpf .olt main_v0 main_v1
  let main_c : IVec S_ 1 := constantI S_ 1 1#1
  let main_v3 : IVec S_ 1 := (fun x v => Host.reduce IntOp.andi x v reducesTo_S256x270x1024_S_d0_1_2 h_S_) main_v2 main_c
  let main_v4 : FVec F S128x270x270 .f32 := Host.absf main_arg2
  let main_cst_0 : FVec F S_ .f32 := constant S_ .f32 0x7F800000#32
  let main_v5 : FVec F S128x270x270 .f32 := broadcastInDim S128x270x270 ![] bcast_S_S128x270x270 main_cst_0
  let main_v6 : IVec S128x270x270 1 := cmpf .olt main_v4 main_v5
  let main_c_1 : IVec S_ 1 := constantI S_ 1 1#1
  let main_v7 : IVec S_ 1 := (fun x v => Host.reduce IntOp.andi x v reducesTo_S128x270x270_S_d0_1_2 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg1 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 128#32
  let main_v13 : IVec S256 32 := broadcastInDim S256 ![] bcast_S_S256 main_c_4
  let main_v14 : IVec S256 1 := cmpi .slt main_arg1 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Kernel.lean ====
abbrev S256x270x1024 : Shape := ⟨3, ![256, 270, 1024]⟩
abbrev S256 : Shape := ⟨1, ![256]⟩
abbrev S128x270x270 : Shape := ⟨3, ![128, 270, 270]⟩
abbrev S_ : Shape := ⟨0, ![]⟩
abbrev S128x272x384 : Shape := ⟨3, ![128, 272, 384]⟩
abbrev S2x270x1024 : Shape := ⟨3, ![2, 270, 1024]⟩
abbrev S2x272x384 : Shape := ⟨3, ![2, 272, 384]⟩
abbrev S2 : Shape := ⟨1, ![2]⟩
abbrev S1 : Shape := ⟨1, ![1]⟩
abbrev S1x272x384 : Shape := ⟨3, ![1, 272, 384]⟩
abbrev S272x384 : Shape := ⟨2, ![272, 384]⟩
abbrev S1x270x1024 : Shape := ⟨3, ![1, 270, 1024]⟩
abbrev S270x1024 : Shape := ⟨2, ![270, 1024]⟩
abbrev S270x270 : Shape := ⟨2, ![270, 270]⟩

abbrev nBuf : Space → Nat
  | .hbm => 14
  | .vmem => 5
  | .smem => 1
  | _ => 0

abbrev bufTy : (tb : Table) → Fin (tcTables nBuf tb) → BufTy
  | .hbm, ⟨0, _⟩ => ⟨S256x270x1024, .f32⟩
  | .hbm, ⟨1, _⟩ => ⟨S256, .i32⟩
  | .hbm, ⟨2, _⟩ => ⟨S128x270x270, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S_, .i32⟩
  | .hbm, ⟨11, _⟩ => ⟨S_, .f32⟩
  | .hbm, ⟨12, _⟩ => ⟨S128x272x384, .f32⟩
  | .hbm, ⟨13, _⟩ => ⟨S256x270x1024, .f32⟩
  | .local _ .vmem, ⟨0, _⟩ => ⟨S2x270x1024, .f32⟩
  | .local _ .vmem, ⟨1, _⟩ => ⟨S2x270x1024, .f32⟩
  | .local _ .vmem, ⟨2, _⟩ => ⟨S2x270x1024, .f32⟩
  | .local _ .vmem, ⟨3, _⟩ => ⟨S2x270x1024, .f32⟩
  | .local _ .vmem, ⟨4, _⟩ => ⟨S2x272x384, .f32⟩
  | .local _ .smem, ⟨0, _⟩ => ⟨S256, .i32⟩
  | _, _ => ⟨S256x270x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_c_1 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_chk1 (v3 : BitVec 32) : Prop :=
  (∀ a, (k0_off2 v3) a + S1x272x384.size a ≤ S128x272x384.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x272x384.size a ≤ S128x272x384.size a := fun v3 k0_hw1 => k0_hw1

def k0_off3 (i : grid0.Coords) : Fin 1 → Nat :=
  let arg0 : BitVec 32 := BitVec.ofNat 32 (i 0).val
  let c2_i32 : BitVec 32 := 2#32
  let v0 : BitVec 32 := Scalar.muli arg0 c2_i32
  let c1_i32 : BitVec 32 := 1#32
  let v16 : BitVec 32 := Scalar.addi v0 c1_i32
  let v17 : Index := Scalar.indexCast v16
  ![v17.toNat]
def k0_off4 (v18 : BitVec 32) : Fin 3 → Nat :=
  let c0_i32_17 : BitVec 32 := 0#32
  let c0_i32_18 : BitVec 32 := 0#32
  ![v18.toNat, 0, 0]

def k0_chk2 (v18 : BitVec 32) : Prop :=
  (∀ a, (k0_off4 v18) a + S1x272x384.size a ≤ S128x272x384.size a)
instance k0_chk2.dec : ∀ (v18 : BitVec 32), Decidable (k0_chk2 v18) := fun v18 => decidable_of_iff' _ (Iff.of_eq (k0_chk2.eq_1 v18))
theorem k0_off4_inb : ∀ (v18 : BitVec 32) (k0_hw2 : k0_chk2 v18), ∀ a, (k0_off4 v18) a + S1x272x384.size a ≤ S128x272x384.size a := fun v18 k0_hw2 => k0_hw2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x270x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x270x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S256 : S_.BroadcastsInDim S256 (![] : Fin 0 → Fin S256.rank)
  pads_S128x270x270_S128x272x384_000_020_01140 : S128x270x270.Pads (![0, 0, 0] : Fin 3 → Nat) ![0, 2, 114] ![0, 0, 0] S128x272x384
  h_S_ : 0 < S_.numel
  numel1_S1 : S1.numel = 1
  inb_S2_S1_0 : ∀ a, (![0] : Fin 1 → Nat) a + S1.size a ≤ S2.size a
  squeezes_S1_S_ : S1.Squeezes S_
  inb_S2x272x384_S1x272x384_0_0_0 : ∀ a, (![0, 0, 0] : Fin 3 → Nat) a + S1x272x384.size a ≤ S2x272x384.size a
  squeezes_S1x272x384_S272x384 : S1x272x384.Squeezes S272x384
  inb_S128x272x384_S1x272x384_0_0_0 : ∀ a, (![0, 0, 0] : Fin 3 → Nat) a + S1x272x384.size a ≤ S128x272x384.size a
  inb_S2_S1_1 : ∀ a, (![1] : Fin 1 → Nat) a + S1.size a ≤ S2.size a
  inb_S2x272x384_S1x272x384_1_0_0 : ∀ a, (![1, 0, 0] : Fin 3 → Nat) a + S1x272x384.size a ≤ S2x272x384.size a
  inb_S2x270x1024_S1x270x1024_0_0_0 : ∀ a, (![0, 0, 0] : Fin 3 → Nat) a + S1x270x1024.size a ≤ S2x270x1024.size a
  h_S1x270x1024 : 0 < S1x270x1024.numel
  shapeCasts_S1x270x1024_S270x1024 : S1x270x1024.ShapeCasts S270x1024
  bitsLt_bf16_f32 : FTy.bits .bf16 < FTy.bits .f32
  h_S1x272x384 : 0 < S1x272x384.numel
  shapeCasts_S1x272x384_S272x384 : S1x272x384.ShapeCasts S272x384
  slices_S272x384_o0_0_S270x270 : S272x384.Slices ![0, 0] S270x270
  shapeCasts_S270x1024_S1x270x1024 : S270x1024.ShapeCasts S1x270x1024
  inb_S2x270x1024_S1x270x1024_1_0_0 : ∀ a, (![1, 0, 0] : Fin 3 → Nat) a + S1x270x1024.size a ≤ S2x270x1024.size a
  dot_S270x270_S270x1024_S270x1024_0_0_1_1_n_n_wf : DotDims.WF S270x270 S270x1024 S270x1024 [0] [0] [1] [1] [] []
  hcc0_scratch1 : 4 + S2.numel ≤ 6
  hrank0 : 0 < grid0.rank
  k0_off1_inb : ∀ i : grid0.Coords, ∀ a, (k0_off1 i) a + S1.size a ≤ S256.size a
  k0_off3_inb : ∀ i : grid0.Coords, ∀ a, (k0_off3 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x270x1024.size a ≤ S256x270x1024.size a
  hwx0_0 : ∀ i : grid0.Coords, EltTy.bits .f32 = 32 ∨ (Rect.block (s := S256x270x1024) S2x270x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S2x270x1024.size a ≤ S256x270x1024.size a
  hwx0_1 : ∀ i : grid0.Coords, EltTy.bits .f32 = 32 ∨ (Rect.block (s := S256x270x1024) S2x270x1024.size (cc0_transform_2 i) (hinb0_1 i)).WholeWords (EltTy.packing .f32)

variable [Facts₀]

abbrev cc0_scratch1 : DmaSems sig S2 := SemArray.consecutive 4 S2 hcc0_scratch1
def dot_S270x270_S270x1024_S270x1024_0_0_1_1_n_n : DotDims S270x270 S270x1024 S270x1024 where
  lhsContracting := [0]
  rhsContracting := [0]
  lhsNonContracting := [1]
  rhsNonContracting := [1]
  lhsBatch := []
  rhsBatch := []
  wf := dot_S270x270_S270x1024_S270x1024_0_0_1_1_n_n_wf

abbrev spec0_0 : Pipeline.WinSpec sig grid0.rank :=
  Pipeline.WinSpec.ofSpec (Memref.whole main_arg0) S2x270x1024.size reads0_0 false false 2 stage0_0 sem0_0 nbuf0_0 hstage0_0

abbrev spec0_1 : Pipeline.WinSpec sig grid0.rank :=
  Pipeline.WinSpec.ofSpec (Memref.whole main_v2) S2x270x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S256x270x1024 : Shape := ⟨3, ![256, 270, 1024]⟩
abbrev S256 : Shape := ⟨1, ![256]⟩
abbrev S128x270x270 : Shape := ⟨3, ![128, 270, 270]⟩
abbrev S_ : Shape := ⟨0, ![]⟩
abbrev S256x1 : Shape := ⟨2, ![256, 1]⟩
abbrev S256x270x270 : Shape := ⟨3, ![256, 270, 270]⟩

abbrev nBuf : Space → Nat
  | .hbm => 13
  | .vmem => 0
  | .smem => 0
  | _ => 0

abbrev bufTy : (tb : Table) → Fin (tcTables nBuf tb) → BufTy
  | .hbm, ⟨0, _⟩ => ⟨S256x270x1024, .f32⟩
  | .hbm, ⟨1, _⟩ => ⟨S256, .i32⟩
  | .hbm, ⟨2, _⟩ => ⟨S128x270x270, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x270x270, .f32⟩
  | .hbm, ⟨12, _⟩ => ⟨S256x270x1024, .f32⟩
  | _, _ => ⟨S256x270x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  gather_S128x270x270_S256x1_S256x270x270_12_0_n_n_0_1_1270270_wf : GatherDims.WF S128x270x270 S256x1 S256x270x270 [1, 2] [0] [] [0] [] 1 ![1, 270, 270]
  dot_S256x270x270_S256x270x1024_S256x270x1024_1_1_2_2_0_0_wf : DotDims.WF S256x270x270 S256x270x1024 S256x270x1024 [1] [1] [2] [2] [0] [0]

variable [Facts₀]

def gather_S128x270x270_S256x1_S256x270x270_12_0_n_n_0_1_1270270 : GatherDims S128x270x270 S256x1 S256x270x270 where
  offsetDims := [1, 2]
  collapsedSliceDims := [0]
  operandBatchingDims := []
  startIndicesBatchingDims := []
  startIndexMap := [0]
  indexVectorDim := 1
  sliceSizes := ![1, 270, 270]
  wf := gather_S128x270x270_S256x1_S256x270x270_12_0_n_n_0_1_1270270_wf
def dot_S256x270x270_S256x270x1024_S256x270x1024_1_1_2_2_0_0 : DotDims S256x270x270 S256x270x1024 S256x270x1024 where
  lhsContracting := [1]
  rhsContracting := [1]
  lhsNonContracting := [2]
  rhsNonContracting := [2]
  lhsBatch := [0]
  rhsBatch := [0]
  wf := dot_S256x270x270_S256x270x1024_S256x270x1024_1_1_2_2_0_0_wf

class Facts : Prop extends Facts₀ where

variable [Facts]
-- ==== Proof.PreFacts.lean ====
/-
  The range of the subject labels, read off the precondition.

  The precondition is a conjunction of four `jnp.all`s; its last two say that every subject word is at least 0 and
  below 128 in the signed order of 32-bit words. A word w with 0 ≤ w (signed) has its top bit clear, so its signed
  and unsigned readings agree, and then w < 128 (signed) is `w.toNat < 128`.
-/
import proofs.«400421_j5626407158064_3_alg».proof.Pre_finite_inputs
import Idealize.ShloMosaic.Lib.ReduceAll
import Idealize.ShloMosaic.Lib.ValueIdx
import Idealize.ShloMosaic.Lib.StableHlo.Predicate

namespace Cert.PreFacts

open Idealize.ShloMosaic Idealize.ShloMosaic.ValueIdx

/-- A 32-bit word that is at least 0 and below 128 in the signed order has unsigned value below 128: the first
    fact clears the sign bit, so the signed reading is the unsigned one. -/
theorem toNat_lt_of_signed (w : BitVec 32) (h0 : IntOp.cmpi .sge w 0#32 = 1#1) (h1 : IntOp.cmpi .slt w 128#32 = 1#1) :
    w.toNat < 128 := by
  have a0 : (0#32 : BitVec 32).toInt ≤ w.toInt := IntOp.cmpi_sge.1 h0
  have a1 : w.toInt < (128#32 : BitVec 32).toInt := IntOp.cmpi_slt.1 h1
  have e0 : (0#32 : BitVec 32).toInt = 0 := by decide
  have e1 : (128#32 : BitVec 32).toInt = 128 := by decide
  rw [e0] at a0
  rw [e1] at a1
  rw [BitVec.toInt_eq_toNat_cond] at a0 a1
  have hw := w.isLt
  split at a0 <;> omega

/-- The scalar shape has one index. -/
instance : Subsingleton Cert.Pre_finite_inputs.S_.Idx := ⟨fun a b => funext fun d => d.elim0⟩

/-- Under the precondition every subject label is a word of value below 128. -/
theorem subj_lt {F : FTy → Type} [FloatOps F] [Cert.Pre_finite_inputs.Facts]
    (x : FVec F Cert.Pre_finite_inputs.S256x270x1024 .f32) (s : IVec Cert.Pre_finite_inputs.S256 32)
    (w : FVec F Cert.Pre_finite_inputs.S128x270x270 .f32)
    (h : Cert.Pre_finite_inputs.fn (F := F) x s w = fun _ => 1#1) (b : Fin 256) : (s (ix1 b)).toNat < 128 := by
  have h0 := congrFun h ix0
  dsimp only [Cert.Pre_finite_inputs.fn, Cert.Pre_finite_inputs.fn_part1] at h0
  -- the conjunction: ((finite x ∧ finite w) ∧ all (0 ≤ s)) ∧ all (s < 128)
  obtain ⟨h12, h15⟩ := IntOp.andi_eq_one.1 h0
  obtain ⟨_, h11⟩ := IntOp.andi_eq_one.1 h12
  -- each `jnp.all` at the label b; the broadcast constants read 0 and 128 there
  have ge := Host.reduce_andi_all _ _ _ _ _ h11 (ix1 b)
  have lt := Host.reduce_andi_all _ _ _ _ _ h15 (ix1 b)
  exact toNat_lt_of_signed (s (ix1 b)) ge lt

end Cert.PreFacts
-- ==== Proof.LibViewWrite.lean ====
/-
  Writing through a view, element by element. What a write leaves at one element of the buffer depends on the contents it
  writes over only where it does not write: on the elements under its mask it is the payload. So two contents that agree off
  a write's elements are written to contents that agree everywhere; and a window of a memref, taken at a unit-stride
  rectangle and with its unit axes dropped, writes exactly the elements under the rectangle.
-/
import Idealize.ShloMosaic.Lib.Exec.Geometry

noncomputable section

namespace Idealize.ShloMosaic

variable {sig : RefSig} {κ : Kind} {sp : Space} {s : Shape} {e : EltTy} {Val : EltTy → Type}

/-- At an element the write covers, or one where the two contents written over agree, the written contents agree. -/
theorem View.write_congr_at (v : View sig κ sp s e) (f g : v.ty.Contents Val) (w : s.Idx → Val e) (M : Finset s.Idx)
    (i : v.ty.Idx) (h : i ∈ v.setOn M ∨ f i = g i) : v.write Val f w M i = v.write Val g w M i := by
  by_cases hi : i ∈ v.setOn M
  · obtain ⟨x, hx, rfl⟩ := Finset.mem_map.mp hi
    rw [View.write_emb_of_mem _ _ hx, View.write_emb_of_mem _ _ hx]
  · rw [View.write_of_not_mem _ _ _ hi, View.write_of_not_mem _ _ _ hi]; exact h.resolve_left hi

/-- The elements under a unit-stride rectangle of a memref are elements of the rectangle's window with its unit axes
    dropped: a whole write through that window covers them. -/
theorem Memref.mem_setOn_univ_squeeze_slice (m : Memref sig κ sp s e) (R : Rect s) (hR : ∀ a, R.stride a = 1) {s' : Shape}
    (hq : R.shape.Squeezes s') {i : m.view.ty.Idx} (hi : i ∈ m.view.setOn R.set) :
    i ∈ ((m.slice R hR).squeeze s' hq).view.setOn Finset.univ := by
  rw [View.setOn_univ, Memref.set_view_squeeze]
  show i ∈ (m.view.slice R).set
  rw [View.set_slice]; exact hi

/-- A whole write through a memref's window at a unit-stride rectangle with its unit axes dropped is the write through the
    rectangle itself of the payload re-indexed by row-major position. -/
theorem Memref.write_squeeze_slice_univ (m : Memref sig κ sp s e) (R : Rect s) (hR : ∀ a, R.stride a = 1) {s' : Shape}
    (hq : R.shape.Squeezes s') (f : m.view.ty.Contents Val) (w : s'.Idx → Val e) :
    ((m.slice R hR).squeeze s' hq).view.write Val f w Finset.univ
      = (m.view.slice R).write Val f (fun x => w ((Shape.reshapeEquiv hq.numel_eq).symm x)) Finset.univ :=
  View.write_reshape_univ (m.view.slice R) hq.numel_eq f w

/-- What such a window reads: the buffer's contents under the rectangle, at the matching row-major position. -/
theorem Memref.read_squeeze_slice_at (m : Memref sig κ sp s e) (R : Rect s) (hR : ∀ a, R.stride a = 1) {s' : Shape}
    (hq : R.shape.Squeezes s') (f : m.view.ty.Contents Val) (x : s'.Idx) :
    ((m.slice R hR).squeeze s' hq).view.read Val f x = m.view.read Val f (R.emb (Shape.reshapeEquiv hq.numel_eq x)) := rfl

end Idealize.ShloMosaic

end
-- ==== Proof.KernelHyps.lean ====
/-
  The side conditions of the kernel's run, from the range of the subject labels.

  The same facts as for the idealized program, stated of the word-level program; they hold at any float instance.
  Before the region the program clips the subject labels to [0, 127] (the prefetched table) and zero-pads the
  weights to [128, 272, 384]. On labels that are already words of value below 128 the clip is the identity, so
  the table is the label vector itself; each word the body loads from it then names a row of the padded
  weights, which is what the body's two assumed bounds say.
-/
import proofs.«400421_j5626407158064_3_alg».proof.Defs
import proofs.«400421_j5626407158064_3_alg».proof.Proof.Gen.Kernel.Frame.Runs
import proofs.«400421_j5626407158064_3_alg».proof.Proof.PreFacts
import Idealize.ShloMosaic.Lib.ValueIdx
import Idealize.ShloMosaic.Lib.StableHlo.Predicate
import Idealize.ShloMosaic.Lib.StableHlo.Run

noncomputable section

namespace Cert.Kernel.Hyp

open Idealize.ShloMosaic Idealize.ShloMosaic.TcCoe Idealize.ShloMosaic.ValueIdx Idealize.ShloMosaic.StableHlo
open Cert.Kernel Cert.Kernel.Gen

variable {F : FTy → Type} [FloatOps F]

/-! ## Words: the clip to [0, 127] fixes a word of value below 128 -/

/-- The signed maximum of 0 and a word of value below 128 is the word. -/
theorem maxsi_zero_of_small (w : BitVec 32) (hw : w.toNat < 128) : IntOp.maxsi 0#32 w = w := by
  have hti : w.toInt = w.toNat := StableHlo.Predicate.toInt_eq_toNat_of_lt (by omega)
  have h0 : (0#32 : BitVec 32).toInt = 0 := by decide
  have hlt : w.slt 0#32 = false := by
    simp only [BitVec.slt, hti, h0]
    exact decide_eq_false (by omega)
  unfold IntOp.maxsi
  rw [hlt]
  rfl

/-- The signed minimum of 127 and a word of value below 128 is the word. -/
theorem minsi_127_of_small (w : BitVec 32) (hw : w.toNat < 128) : IntOp.minsi 127#32 w = w := by
  have hti : w.toInt = w.toNat := StableHlo.Predicate.toInt_eq_toNat_of_lt (by omega)
  have h127 : (127#32 : BitVec 32).toInt = 127 := by decide
  have hlt : (127#32 : BitVec 32).slt w = false := by
    simp only [BitVec.slt, hti, h127]
    exact decide_eq_false (by omega)
  unfold IntOp.minsi
  rw [hlt]
  rfl

/-- A word of value below 128 names a row of the padded weights: the first bound the body assumes. -/
theorem chk1_of_small (v : BitVec 32) (hv : v.toNat < 128) : k0_chk1 v := by
  unfold k0_chk1 k0_off2
  intro a
  match a with
  | ⟨0, _⟩ => show v.toNat + 1 ≤ 128; omega
  | ⟨1, _⟩ => show 0 + 272 ≤ 272; omega
  | ⟨2, _⟩ => show 0 + 384 ≤ 384; omega

/-- The same of the second word the body loads. -/
theorem chk2_of_small (v : BitVec 32) (hv : v.toNat < 128) : k0_chk2 v := by
  unfold k0_chk2 k0_off4
  intro a
  match a with
  | ⟨0, _⟩ => show v.toNat + 1 ≤ 128; omega
  | ⟨1, _⟩ => show 0 + 272 ≤ 272; omega
  | ⟨2, _⟩ => show 0 + 384 ≤ 384; omega

variable (m : (ℓ : Loc nD τ sig) → Buf (Elt F) ℓ)

/-! ## The arrays the region finds -/

/-- The prefetched table as the host operations leave it: the labels clipped to [0, 127]. -/
theorem tbl_clip : (Gen.tbl m 0 : IVec S256 32)
    = minsi (broadcastInDim S256 ![] bcast_S_S256 (constantI S_ 32 127#32))
        (maxsi (broadcastInDim S256 ![] bcast_S_S256 (constantI S_ 32 0#32)) (m ((0 : Dev nD).tc.loc main_arg1))) := by
  unfold Gen.tbl
  show Gen.V m 0 main_v0 = _
  dsimp only [Gen.V]
  simp only [Gen.hostOps0, Gen.hostOps0_1, Gen.hostOps0_2, Gen.hostOps0_3, List.flatten_cons, List.flatten_nil, List.append_nil,
    List.cons_append, List.nil_append]
  after_results
  rfl

/-- On labels of value below 128 the table the region reads is the label vector itself. -/
theorem tbl_eq (hs : ∀ b : Fin 256, ((m ((0 : Dev nD).tc.loc main_arg1) : IVec S256 32) (ix1 b)).toNat < 128) :
    (Gen.tbl m 0 : IVec S256 32) = m ((0 : Dev nD).tc.loc main_arg1) := by
  rw [tbl_clip]
  funext j
  obtain ⟨b, rfl⟩ : ∃ b, j = ix1 b := ⟨j 0, eq_ix1 j⟩
  show IntOp.minsi 127#32 (IntOp.maxsi 0#32 ((m ((0 : Dev nD).tc.loc main_arg1) : IVec S256 32) (ix1 b))) = _
  rw [maxsi_zero_of_small _ (hs b), minsi_127_of_small _ (hs b)]

/-! ## The body's assumed bounds -/

/-- Every word of the table has value below 128. -/
theorem tbl_lt (hs : ∀ b : Fin 256, ((m ((0 : Dev nD).tc.loc main_arg1) : IVec S256 32) (ix1 b)).toNat < 128)
    (j : S256.Idx) : ((Gen.tbl m 0 : IVec S256 32) j).toNat < 128 := by
  rw [tbl_eq m hs, eq_ix1 j]
  exact hs _

/-- The bounds the body assumes of the two words it loads at each grid point hold: each is a table word. -/
theorem hyps_of_pre (hO : Gen.Ok m)
    (hs : ∀ b : Fin 256, ((m ((0 : Dev nD).tc.loc main_arg1) : IVec S256 32) (ix1 b)).toNat < 128) : Gen.Hyps m hO := by
  refine Gen.Hyps.of (fun c t => ?_) (fun c t => ?_)
  · exact chk1_of_small _ (tbl_lt m hs (LoadRect.idx _ _))
  · exact chk2_of_small _ (tbl_lt m hs (LoadRect.idx _ _))

end Cert.Kernel.Hyp

end
-- ==== Proof.KernelIdealHyps.lean ====
/-
  The side conditions of the kernel's run, from the range of the subject labels.

  Before the region the program clips the subject labels to [0, 127] (the prefetched table) and zero-pads the
  weights to [128, 272, 384]. On labels that are already words of value below 128 the clip is the identity, so
  the table is the label vector itself; each word the body loads from it then names a row of the padded
  weights, which is what the body's two assumed bounds say.
-/
import proofs.«400421_j5626407158064_3_alg».proof.Defs
import proofs.«400421_j5626407158064_3_alg».proof.Proof.Gen.KernelIdeal.Frame.Runs
import proofs.«400421_j5626407158064_3_alg».proof.Proof.PreFacts
import Idealize.ShloMosaic.Lib.ValueIdx
import Idealize.ShloMosaic.Lib.StableHlo.Predicate
import Idealize.ShloMosaic.Lib.StableHlo.Run

noncomputable section

namespace Cert.KernelIdeal.Hyp

open Idealize.ShloMosaic Idealize.ShloMosaic.TcCoe Idealize.ShloMosaic.ValueIdx Idealize.ShloMosaic.StableHlo
open Cert.KernelIdeal Cert.KernelIdeal.Gen

variable {F : FTy → Type} [FloatOps F]

/-! ## Words: the clip to [0, 127] fixes a word of value below 128 -/

/-- The signed maximum of 0 and a word of value below 128 is the word. -/
theorem maxsi_zero_of_small (w : BitVec 32) (hw : w.toNat < 128) : IntOp.maxsi 0#32 w = w := by
  have hti : w.toInt = w.toNat := StableHlo.Predicate.toInt_eq_toNat_of_lt (by omega)
  have h0 : (0#32 : BitVec 32).toInt = 0 := by decide
  have hlt : w.slt 0#32 = false := by
    simp only [BitVec.slt, hti, h0]
    exact decide_eq_false (by omega)
  unfold IntOp.maxsi
  rw [hlt]
  rfl

/-- The signed minimum of 127 and a word of value below 128 is the word. -/
theorem minsi_127_of_small (w : BitVec 32) (hw : w.toNat < 128) : IntOp.minsi 127#32 w = w := by
  have hti : w.toInt = w.toNat := StableHlo.Predicate.toInt_eq_toNat_of_lt (by omega)
  have h127 : (127#32 : BitVec 32).toInt = 127 := by decide
  have hlt : (127#32 : BitVec 32).slt w = false := by
    simp only [BitVec.slt, hti, h127]
    exact decide_eq_false (by omega)
  unfold IntOp.minsi
  rw [hlt]
  rfl

/-- A word of value below 128 names a row of the padded weights: the first bound the body assumes. -/
theorem chk1_of_small (v : BitVec 32) (hv : v.toNat < 128) : k0_chk1 v := by
  unfold k0_chk1 k0_off2
  intro a
  match a with
  | ⟨0, _⟩ => show v.toNat + 1 ≤ 128; omega
  | ⟨1, _⟩ => show 0 + 272 ≤ 272; omega
  | ⟨2, _⟩ => show 0 + 384 ≤ 384; omega

/-- The same of the second word the body loads. -/
theorem chk2_of_small (v : BitVec 32) (hv : v.toNat < 128) : k0_chk2 v := by
  unfold k0_chk2 k0_off4
  intro a
  match a with
  | ⟨0, _⟩ => show v.toNat + 1 ≤ 128; omega
  | ⟨1, _⟩ => show 0 + 272 ≤ 272; omega
  | ⟨2, _⟩ => show 0 + 384 ≤ 384; omega

variable (m : (ℓ : Loc nD τ sig) → Buf (Elt F) ℓ)

/-! ## The arrays the region finds -/

/-- The prefetched table as the host operations leave it: the labels clipped to [0, 127]. -/
theorem tbl_clip : (Gen.tbl m 0 : IVec S256 32)
    = minsi (broadcastInDim S256 ![] bcast_S_S256 (constantI S_ 32 127#32))
        (maxsi (broadcastInDim S256 ![] bcast_S_S256 (constantI S_ 32 0#32)) (m ((0 : Dev nD).tc.loc main_arg1))) := by
  unfold Gen.tbl
  show Gen.V m 0 main_v0 = _
  dsimp only [Gen.V]
  simp only [Gen.hostOps0, Gen.hostOps0_1, Gen.hostOps0_2, Gen.hostOps0_3, List.flatten_cons, List.flatten_nil, List.append_nil,
    List.cons_append, List.nil_append]
  after_results
  rfl

/-- On labels of value below 128 the table the region reads is the label vector itself. -/
theorem tbl_eq (hs : ∀ b : Fin 256, ((m ((0 : Dev nD).tc.loc main_arg1) : IVec S256 32) (ix1 b)).toNat < 128) :
    (Gen.tbl m 0 : IVec S256 32) = m ((0 : Dev nD).tc.loc main_arg1) := by
  rw [tbl_clip]
  funext j
  obtain ⟨b, rfl⟩ : ∃ b, j = ix1 b := ⟨j 0, eq_ix1 j⟩
  show IntOp.minsi 127#32 (IntOp.maxsi 0#32 ((m ((0 : Dev nD).tc.loc main_arg1) : IVec S256 32) (ix1 b))) = _
  rw [maxsi_zero_of_small _ (hs b), minsi_127_of_small _ (hs b)]

/-- The weights as the region finds them: zero-padded to [128, 272, 384]. -/
theorem V_main_v1 (c : Dev nD) : (Gen.V m c main_v1 : S128x272x384.Idx → Elt F .f32)
    = pad S128x272x384 ![0, 0, 0] ![0, 2, 114] ![0, 0, 0] (m (c.tc.loc main_arg2))
        (sitofp .f32 (constantI S_ 32 0#32 : IVec S_ 32)) Facts₀.pads_S128x270x270_S128x272x384_000_020_01140 Facts₀.h_S_ := by
  dsimp only [Gen.V]
  simp only [Gen.hostOps0, Gen.hostOps0_1, Gen.hostOps0_2, Gen.hostOps0_3, List.flatten_cons, List.flatten_nil, List.append_nil,
    List.cons_append, List.nil_append]
  after_results
  rfl

/-! ## The body's assumed bounds -/

/-- Every word of the table has value below 128. -/
theorem tbl_lt (hs : ∀ b : Fin 256, ((m ((0 : Dev nD).tc.loc main_arg1) : IVec S256 32) (ix1 b)).toNat < 128)
    (j : S256.Idx) : ((Gen.tbl m 0 : IVec S256 32) j).toNat < 128 := by
  rw [tbl_eq m hs, eq_ix1 j]
  exact hs _

/-- The bounds the body assumes of the two words it loads at each grid point hold: each is a table word. -/
theorem hyps_of_pre (hO : Gen.Ok m)
    (hs : ∀ b : Fin 256, ((m ((0 : Dev nD).tc.loc main_arg1) : IVec S256 32) (ix1 b)).toNat < 128) : Gen.Hyps m hO := by
  refine Gen.Hyps.of (fun c t => ?_) (fun c t => ?_)
  · exact chk1_of_small _ (tbl_lt m hs (LoadRect.idx _ _))
  · exact chk2_of_small _ (tbl_lt m hs (LoadRect.idx _ _))

end Cert.KernelIdeal.Hyp

end
-- ==== Proof.KernelIdealSlots.lean ====
/-
  What the body's two weight slots hold when it loads them, and what a copy brings. A copy writes its whole slot — a
  [272, 384] window of the [2, 272, 384] scratch at slot 0 or 1 — so the [1, 272, 384] load of slot 0 after the copies reads
  the first copy's payload at the same (row, lane), the other slot's copy not touching it, and the load of slot 1 reads the
  second's. A copy's payload is the padded weight table's row at the table word: entry (k, d) of the payload is entry
  (word, k, d) of the table.
-/
import proofs.«400421_j5626407158064_3_alg».proof.Proof.KernelIdealRunA
import Idealize.ShloMosaic.Lib.Writes
import Idealize.ShloMosaic.Lib.ValueIdx

set_option maxRecDepth 16384

noncomputable section

open Idealize.ShloMosaic Idealize.ShloMosaic.TcCoe Idealize.ShloMosaic.ValueIdx

namespace Cert.KernelIdeal.Slots

open Cert.KernelIdeal Cert.KernelIdeal.Gen Cert.KernelIdeal.GenP

variable {F : FTy → Type} [FloatOps F]

/-- An index of a [1, 272, 384] block is (0, row, lane); without its unit axis it is (row, lane). -/
theorem cons_zero (k : Fin 272) (d : Fin 384) :
    (Fin.cons (⟨0, Nat.one_pos⟩ : Fin 1) (ix2 k d : S272x384.Idx) : S1x272x384.Idx) = ix3 (0 : Fin 1) k d := by
  funext a
  match a with
  | ⟨0, _⟩ => rfl
  | ⟨1, _⟩ => rfl
  | ⟨2, _⟩ => rfl

theorem unsqueeze (h : S272x384.numel = S1x272x384.numel) (k : Fin 272) (d : Fin 384) :
    (Shape.reshapeEquiv h).symm (ix3 (0 : Fin 1) k d) = ix2 k d := by
  rw [Equiv.symm_apply_eq, ← cons_zero]
  exact (Shape.reshapeEquiv_cons_one h (ix2 k d)).symm

variable (c : Dev nD) (i : grid0.Coords) (arg5 : Memref sig .tc .vmem S2x272x384 .f32)
  (xt0 : TbBuf0 (F := F) c tbM0_0) (fh0 : HbBuf0 (F := F) c hbM0_0)
  (k0_hw1 : k0_chk1 (tbM0_0.view.readAt (Elt F) (Rect.unit (s := S256) (k0_off1 i) S1.size (k0_off1_inb i)).toLoadRect xt0 (Shape.Idx.first (numel1_S1.symm ▸ Nat.one_pos))))
  (k0_hw2 : k0_chk2 (tbM0_0.view.readAt (Elt F) (Rect.unit (s := S256) (k0_off3 i) S1.size (k0_off3_inb i)).toLoadRect xt0 (Shape.Idx.first (numel1_S1.symm ▸ Nat.one_pos))))

/-- The load of slot 0 reads the first copy's payload. -/
theorem v28_apply (k : Fin 272) (d : Fin 384) :
    kernelRun0_A.sl.v28 c i arg5 xt0 fh0 k0_hw1 k0_hw2 arg5.view.junk (ix3 (0 : Fin 1) k d)
      = kernelRun0_A.sl.dma1 c i xt0 fh0 k0_hw1 (ix2 k d) := by
  unfold kernelRun0_A.sl.v28
  rw [View.readAt_apply, Memref.write_squeeze_slice_univ, Memref.write_squeeze_slice_univ]
  rw [View.read_slice_write_of_not_mem _ _ _ _ (by
    rw [Rect.map_emb_univ, Rect.mem_set_unit]
    intro h
    have := (h 0).1
    simp at this)]
  refine (View.read_slice_write_emb _ _ _ (Finset.mem_univ (ix3 (0 : Fin 1) k d))).trans ?_
  exact congrArg _ (unsqueeze _ k d)

/-- The load of slot 1 reads the second copy's payload. -/
theorem v45_apply (k : Fin 272) (d : Fin 384) :
    kernelRun0_A.sl.v45 c i arg5 xt0 fh0 k0_hw1 k0_hw2 arg5.view.junk (ix3 (0 : Fin 1) k d)
      = kernelRun0_A.sl.dma2 c i xt0 fh0 k0_hw2 (ix2 k d) := by
  unfold kernelRun0_A.sl.v45
  rw [View.readAt_apply, Memref.write_squeeze_slice_univ]
  refine (View.read_slice_write_emb _ _ _ (Finset.mem_univ (ix3 (0 : Fin 1) k d))).trans ?_
  exact congrArg _ (unsqueeze _ k d)

end Cert.KernelIdeal.Slots

end
-- ==== Proof.KernelIdealPay.lean ====
/-
  The kernel body's arithmetic read at an index. Per batch entry of a block the body takes the signal block
  [1, 270, 1024] as a matrix [270, 1024], takes the leading 270 × 270 corner of the weight slab [1, 272, 384] viewed
  as a matrix [272, 384], and multiplies the two contracting axis 0 of both into a zero accumulator; the result
  [270, 1024] is stored as a block [1, 270, 1024]. Over the extended reals the format changes are the identity, so

      block[0, d, t] = ∑ k : Fin 270, slab[0, k, d] · signal[0, k, t].

  Each layout step is read at an index written by coordinates, the product's operand indices are read axis by axis,
  and the three payloads follow by chaining those equations.
-/
import proofs.«400421_j5626407158064_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The layout steps at an index -/

/-- The leading 270 × 270 corner of a 272 × 384 matrix reads, at (k, d), the matrix at (k, d). -/
theorem corner_apply {α : Type} (X : S272x384.Idx → α) (h : S272x384.Slices ![0, 0] S270x270) (k d : Fin 270) :
    extractStridedSlice S270x270 ![0, 0] X h (ix2 k d)
      = X (ix2 (⟨k.val, Nat.lt_trans k.isLt (by decide)⟩ : Fin 272) (⟨d.val, Nat.lt_trans d.isLt (by decide)⟩ : Fin 384)) :=
  extractStridedSlice_apply _ _ _ _ _ (fun ax => by
    match ax with
    | ⟨0, _⟩ => exact (Nat.zero_add _).symm
    | ⟨1, _⟩ => exact (Nat.zero_add _).symm)

/-! ## The product's operand indices, axis by axis

The product contracts axis 0 of both operands and keeps axis 1 of each: the left operand is read at
(contraction position, result row) and the right one at (contraction position, result column). -/

theorem lhs_dot_0 (i : S270x1024.Idx) (q : dot_S270x270_S270x1024_S270x1024_0_0_1_1_n_n.contr.Idx) :
    (dot_S270x270_S270x1024_S270x1024_0_0_1_1_n_n.lhsIdx i q 0).val = (q ⟨0, by decide⟩).val :=
  dot_S270x270_S270x1024_S270x1024_0_0_1_1_n_n.lhsIdx_val_of_single rfl i q
theorem lhs_dot_1 (i : S270x1024.Idx) (q : dot_S270x270_S270x1024_S270x1024_0_0_1_1_n_n.contr.Idx) :
    (dot_S270x270_S270x1024_S270x1024_0_0_1_1_n_n.lhsIdx i q 1).val = (i 0).val := by
  unfold DotDims.lhsIdx
  rw [dif_neg (show ¬(1 : Fin S270x270.rank) ∈ dot_S270x270_S270x1024_S270x1024_0_0_1_1_n_n.lhsBatch by decide), dif_pos (show (1 : Fin S270x270.rank) ∈ dot_S270x270_S270x1024_S270x1024_0_0_1_1_n_n.lhsNonContracting by decide)]
  rfl
theorem rhs_dot_0 (i : S270x1024.Idx) (q : dot_S270x270_S270x1024_S270x1024_0_0_1_1_n_n.contr.Idx) :
    (dot_S270x270_S270x1024_S270x1024_0_0_1_1_n_n.rhsIdx i q 0).val = (q ⟨0, by decide⟩).val :=
  dot_S270x270_S270x1024_S270x1024_0_0_1_1_n_n.rhsIdx_val_of_single rfl i q
theorem rhs_dot_1 (i : S270x1024.Idx) (q : dot_S270x270_S270x1024_S270x1024_0_0_1_1_n_n.contr.Idx) :
    (dot_S270x270_S270x1024_S270x1024_0_0_1_1_n_n.rhsIdx i q 1).val = (i 1).val := by
  unfold DotDims.rhsIdx
  rw [dif_neg (show ¬(1 : Fin S270x1024.rank) ∈ dot_S270x270_S270x1024_S270x1024_0_0_1_1_n_n.rhsBatch by decide), dif_pos (show (1 : Fin S270x1024.rank) ∈ dot_S270x270_S270x1024_S270x1024_0_0_1_1_n_n.rhsNonContracting by decide)]
  rfl

/-- The product into a zero accumulator at (d, t): the sum over the contracted axis of left (k, d) times right (k, t). -/
theorem dot_apply (l : FVec Ideal S270x270 .bf16) (r : FVec Ideal S270x1024 .bf16) (d : Fin 270) (t : Fin 1024) :
    matmul (F := Ideal) dot_S270x270_S270x1024_S270x1024_0_0_1_1_n_n none l r (constant (F := Ideal) S270x1024 .f32 0x00000000#32) (ix2 d t)
      = ∑ k : Fin 270, l (ix2 k d) * r (ix2 k t) := by
  refine (Ideal.matmul_constant_zero_apply dot_S270x270_S270x1024_S270x1024_0_0_1_1_n_n none l r (ix2 d t)).trans ?_
  rw [← Equiv.sum_comp (contrEquiv1 dot_S270x270_S270x1024_S270x1024_0_0_1_1_n_n 270 rfl rfl).symm]
  refine Finset.sum_congr rfl fun k _ => ?_
  have hk := contrEquiv1_symm_val dot_S270x270_S270x1024_S270x1024_0_0_1_1_n_n 270 rfl rfl k
  have el : dot_S270x270_S270x1024_S270x1024_0_0_1_1_n_n.lhsIdx (ix2 d t) ((contrEquiv1 dot_S270x270_S270x1024_S270x1024_0_0_1_1_n_n 270 rfl rfl).symm k) = ix2 k d := funext fun a => Fin.ext (by
    match a with
    | ⟨0, _⟩ => exact (lhs_dot_0 _ _).trans hk
    | ⟨1, _⟩ => exact lhs_dot_1 _ _)
  have er : dot_S270x270_S270x1024_S270x1024_0_0_1_1_n_n.rhsIdx (ix2 d t) ((contrEquiv1 dot_S270x270_S270x1024_S270x1024_0_0_1_1_n_n 270 rfl rfl).symm k) = ix2 k t := funext fun a => Fin.ext (by
    match a with
    | ⟨0, _⟩ => exact (rhs_dot_0 _ _).trans hk
    | ⟨1, _⟩ => exact rhs_dot_1 _ _)
  rw [el, er]

/-! ## The payloads at an index -/

/-- The signal block as the product's right operand: at (k, t) it is the loaded block at (0, k, t). -/
theorem pay3_apply (v25 : Vec Ideal S1x270x1024 .f32) (k : Fin 270) (t : Fin 1024) :
    k0_pay3 (F := Ideal) v25 (ix2 k t) = v25 (ix3 (0 : Fin 1) k t) := by
  unfold k0_pay3
  refine (truncf_apply (φ := .f32) (ψ := .bf16) _ _ _).trans ?_
  exact shapeCast_1ab_ab_apply v25 _ k t

/-- The first batch entry's result block at (0, d, t): the weight slab's column d against the signal's column t. -/
theorem pay1_apply (v27 : FVec Ideal S270x1024 .bf16) (v28 : Vec Ideal S1x272x384 .f32) (d : Fin 270) (t : Fin 1024) :
    k0_pay1 (F := Ideal) v27 v28 (ix3 (0 : Fin 1) d t)
      = ∑ k : Fin 270, v28 (ix3 (0 : Fin 1) (⟨k.val, Nat.lt_trans k.isLt (by decide)⟩ : Fin 272) (⟨d.val, Nat.lt_trans d.isLt (by decide)⟩ : Fin 384)) * v27 (ix2 k t) := by
  unfold k0_pay1
  refine (shapeCast_ab_1ab_apply _ _ (0 : Fin 1) d t).trans ?_
  refine (dot_apply _ _ d t).trans ?_
  refine Finset.sum_congr rfl fun k _ => ?_
  refine congrArg (· * v27 (ix2 k t)) ?_
  refine (truncf_apply (φ := .f32) (ψ := .bf16) _ _ _).trans ?_
  refine (corner_apply _ _ k d).trans ?_
  exact shapeCast_1ab_ab_apply v28 _ _ _

/-- The second batch entry's result block, the signal block read in place. -/
theorem pay2_apply (v42 : Vec Ideal S1x270x1024 .f32) (v45 : Vec Ideal S1x272x384 .f32) (d : Fin 270) (t : Fin 1024) :
    k0_pay2 (F := Ideal) v42 v45 (ix3 (0 : Fin 1) d t)
      = ∑ k : Fin 270, v45 (ix3 (0 : Fin 1) (⟨k.val, Nat.lt_trans k.isLt (by decide)⟩ : Fin 272) (⟨d.val, Nat.lt_trans d.isLt (by decide)⟩ : Fin 384)) * v42 (ix3 (0 : Fin 1) k t) := by
  unfold k0_pay2
  refine (shapeCast_ab_1ab_apply _ _ (0 : Fin 1) d t).trans ?_
  refine (dot_apply _ _ d t).trans ?_
  refine Finset.sum_congr rfl fun k _ => ?_
  refine congrArg₂ (· * ·) ?_ ?_
  · refine (truncf_apply (φ := .f32) (ψ := .bf16) _ _ _).trans ?_
    refine (corner_apply _ _ k d).trans ?_
    exact shapeCast_1ab_ab_apply v45 _ _ _
  · refine (truncf_apply (φ := .f32) (ψ := .bf16) _ _ _).trans ?_
    exact shapeCast_1ab_ab_apply v42 _ k t

end Cert.KernelIdeal.Pay

end
-- ==== Proof.KernelIdealCopies.lean ====
/-
  What the kernel's body reads and copies at a grid point, in terms of the table's and the weight table's contents.

  At grid point `i` the body loads two words of the subject table, its entries `2 i` and `2 i + 1` (the offsets are
  computed on 32-bit words; a grid coordinate is below 128, so nothing wraps), and copies, for each word, the `[272, 384]`
  row of the padded weight table `[128, 272, 384]` at that word: the copy's element `(k, d)` is the table's `(word, k, d)`.
-/
import proofs.«400421_j5626407158064_3_alg».proof.Proof.KernelIdealRunA
import Idealize.ShloMosaic.Lib.ValueIdx

noncomputable section

namespace Cert.KernelIdeal.Copies

open Idealize.ShloMosaic Idealize.ShloMosaic.ValueIdx Cert.KernelIdeal Cert.KernelIdeal.Gen Cert.KernelIdeal.GenP

variable {F : FTy → Type} [FloatOps F]

/-! ## Words: the two table offsets of grid point `n` -/

/-- Twice a grid coordinate, computed on 32-bit words, is twice the coordinate. -/
theorem toNat_twice (n : Nat) (h : n < 128) : (BitVec.ofNat 32 n * 2#32 + 0#32).toNat = 2 * n := by
  simp only [BitVec.toNat_add, BitVec.toNat_mul, BitVec.toNat_ofNat]
  omega

/-- Twice a grid coordinate plus one, computed on 32-bit words, is that number. -/
theorem toNat_twice_succ (n : Nat) (h : n < 128) : (BitVec.ofNat 32 n * 2#32 + 1#32).toNat = 2 * n + 1 := by
  simp only [BitVec.toNat_add, BitVec.toNat_mul, BitVec.toNat_ofNat]
  omega

/-- A grid coordinate is below 128. -/
theorem coord_lt (i : grid0.Coords) : (i 0).val < 128 := (i 0).isLt

/-- The first load's offset at grid point `i` is `2 i`. -/
theorem off1_eq (i : grid0.Coords) : k0_off1 i 0 = 2 * (i 0).val := by
  show (BitVec.ofNat 32 (i 0).val * 2#32 + 0#32).toNat = _
  exact toNat_twice _ (coord_lt i)

/-- The second load's offset at grid point `i` is `2 i + 1`. -/
theorem off3_eq (i : grid0.Coords) : k0_off3 i 0 = 2 * (i 0).val + 1 := by
  show (BitVec.ofNat 32 (i 0).val * 2#32 + 1#32).toNat = _
  exact toNat_twice_succ _ (coord_lt i)

/-! ## The two table words the body loads -/

/-- The first word the body loads at grid point `i` is the table's entry `2 i`. -/
theorem word0 (c : Dev nD) (i : grid0.Coords) (xt0 : TbBuf0 (F := F) c tbM0_0) :
    kernelRun0_A.sl.r c i xt0
      = (xt0 : IVec S256 32) (ix1 (⟨2 * (i 0).val, by have := coord_lt i; omega⟩ : Fin 256)) := by
  unfold kernelRun0_A.sl.r
  rw [View.readAt_apply, View.read_apply]
  refine congrArg (xt0 : IVec S256 32) (funext fun a => Fin.ext ?_)
  match a with
  | ⟨0, _⟩ =>
    show k0_off1 i 0 + 1 * 0 = 2 * (i 0).val
    have := off1_eq i
    omega

/-- The second word the body loads at grid point `i` is the table's entry `2 i + 1`. -/
theorem word1 (c : Dev nD) (i : grid0.Coords) (xt0 : TbBuf0 (F := F) c tbM0_0) :
    kernelRun0_A.sl.r_1 c i xt0
      = (xt0 : IVec S256 32) (ix1 (⟨2 * (i 0).val + 1, by have := coord_lt i; omega⟩ : Fin 256)) := by
  unfold kernelRun0_A.sl.r_1
  rw [View.readAt_apply, View.read_apply]
  refine congrArg (xt0 : IVec S256 32) (funext fun a => Fin.ext ?_)
  match a with
  | ⟨0, _⟩ =>
    show k0_off3 i 0 + 1 * 0 = 2 * (i 0).val + 1
    have := off3_eq i
    omega

/-! ## What the body's two copies bring -/

/-- The `[272, 384]` index `(k, d)` is, in `[1, 272, 384]`, `(0, k, d)`. -/
theorem squeeze_idx (k : Fin 272) (d : Fin 384) :
    Shape.reshapeEquiv (s := S1x272x384) (s' := S272x384) squeezes_S1x272x384_S272x384.numel_eq (ix2 k d)
      = Fin.cons ⟨0, Nat.one_pos⟩ (ix2 k d) :=
  Shape.reshapeEquiv_cons_one (n := 2) (d := ![272, 384]) _ _

/-- The first copy brings the table's row at the first word: at `(k, d)`, the table at `(word, k, d)`. -/
theorem dma1_apply (c : Dev nD) (i : grid0.Coords) (xt0 : TbBuf0 (F := F) c tbM0_0) (fh0 : HbBuf0 (F := F) c hbM0_0)
    (k0_hw1 : k0_chk1 (tbM0_0.view.readAt (Elt F) (Rect.unit (s := S256) (k0_off1 i) S1.size (k0_off1_inb i)).toLoadRect xt0 (Shape.Idx.first (numel1_S1.symm ▸ Nat.one_pos))))
    (k : Fin 272) (d : Fin 384) (hlt : (kernelRun0_A.sl.r c i xt0).toNat < 128) :
    kernelRun0_A.sl.dma1 c i xt0 fh0 k0_hw1 (ix2 k d)
      = (fh0 : S128x272x384.Idx → Elt F .f32) (ix3 (⟨(kernelRun0_A.sl.r c i xt0).toNat, hlt⟩ : Fin 128) k d) := by
  unfold kernelRun0_A.sl.dma1
  show (fh0 : S128x272x384.Idx → Elt F .f32) ((Rect.unit (s := S128x272x384) (k0_off2 (kernelRun0_A.sl.r c i xt0)) S1x272x384.size _).emb
      (Shape.reshapeEquiv (s := S1x272x384) (s' := S272x384) squeezes_S1x272x384_S272x384.numel_eq (ix2 k d))) = _
  rw [squeeze_idx]
  refine congrArg (fh0 : S128x272x384.Idx → Elt F .f32) (funext fun a => Fin.ext ?_)
  match a with
  | ⟨0, _⟩ =>
    show (kernelRun0_A.sl.r c i xt0).toNat + 1 * 0 = (kernelRun0_A.sl.r c i xt0).toNat
    omega
  | ⟨1, _⟩ =>
    show 0 + 1 * k.val = k.val
    omega
  | ⟨2, _⟩ =>
    show 0 + 1 * d.val = d.val
    omega

/-- The second copy brings the table's row at the second word: at `(k, d)`, the table at `(word, k, d)`. -/
theorem dma2_apply (c : Dev nD) (i : grid0.Coords) (xt0 : TbBuf0 (F := F) c tbM0_0) (fh0 : HbBuf0 (F := F) c hbM0_0)
    (k0_hw2 : k0_chk2 (tbM0_0.view.readAt (Elt F) (Rect.unit (s := S256) (k0_off3 i) S1.size (k0_off3_inb i)).toLoadRect xt0 (Shape.Idx.first (numel1_S1.symm ▸ Nat.one_pos))))
    (k : Fin 272) (d : Fin 384) (hlt : (kernelRun0_A.sl.r_1 c i xt0).toNat < 128) :
    kernelRun0_A.sl.dma2 c i xt0 fh0 k0_hw2 (ix2 k d)
      = (fh0 : S128x272x384.Idx → Elt F .f32) (ix3 (⟨(kernelRun0_A.sl.r_1 c i xt0).toNat, hlt⟩ : Fin 128) k d) := by
  unfold kernelRun0_A.sl.dma2
  show (fh0 : S128x272x384.Idx → Elt F .f32) ((Rect.unit (s := S128x272x384) (k0_off4 (kernelRun0_A.sl.r_1 c i xt0)) S1x272x384.size _).emb
      (Shape.reshapeEquiv (s := S1x272x384) (s' := S272x384) squeezes_S1x272x384_S272x384.numel_eq (ix2 k d))) = _
  rw [squeeze_idx]
  refine congrArg (fh0 : S128x272x384.Idx → Elt F .f32) (funext fun a => Fin.ext ?_)
  match a with
  | ⟨0, _⟩ =>
    show (kernelRun0_A.sl.r_1 c i xt0).toNat + 1 * 0 = (kernelRun0_A.sl.r_1 c i xt0).toNat
    omega
  | ⟨1, _⟩ =>
    show 0 + 1 * k.val = k.val
    omega
  | ⟨2, _⟩ =>
    show 0 + 1 * d.val = d.val
    omega

end Cert.KernelIdeal.Copies

end
-- ==== Proof.Spec.lean ====
/-
  The function both programs compute. For a batch entry `b` with subject word `s b`, the result row `(b, d, ·)` is the
  contraction over the input channel `c` of the subject's weight matrix with the batch's signal:

      out[b, d, t] = ∑ c, weights[subject b, c, d] · x[b, c, t]

  over the extended reals. The subject's row of the weight table is the word read as a natural number; where the word is a
  label (below 128, which the certificate's precondition says of every entry) that is the word itself, and the cap at the
  last row only makes the function total.
-/
import Idealize.ShloMosaic.PureOps.Ideal
import Idealize.ShloMosaic.Lib.ValueIdx

noncomputable section

open scoped BigOperators

namespace Cert.SubjectLayers

open Idealize.ShloMosaic Idealize.ShloMosaic.ValueIdx

/-- The signal and the result: 256 batch entries of 270 channels by 1024 time steps. -/
abbrev SX : Shape := ⟨3, ![256, 270, 1024]⟩
/-- One subject word per batch entry. -/
abbrev SS : Shape := ⟨1, ![256]⟩
/-- One 270 × 270 matrix (input channel, output channel) per subject. -/
abbrev SW : Shape := ⟨3, ![128, 270, 270]⟩

/-- The weight-table row of batch entry `b`: its subject word as a natural number, capped at the last row. -/
def subj (s : IVec SS 32) (b : Fin 256) : Fin 128 := ⟨min (s (ix1 b)).toNat 127, by omega⟩

/-- A subject word that is a label is its own row. -/
theorem subj_val (s : IVec SS 32) (b : Fin 256) (h : (s (ix1 b)).toNat < 128) : (subj s b).val = (s (ix1 b)).toNat := by
  unfold subj; simp only; omega

/-- The result at `(b, d, t)`: the subject's matrix contracted with the batch's signal over the input channel. -/
def G (x : SX.Idx → EReal) (s : IVec SS 32) (w : SW.Idx → EReal) : SX.Idx → EReal :=
  fun j => ∑ k : Fin 270, w (ix3 (subj s (j 0)) k (j 1)) * x (ix3 (j 0) k (j 2))

theorem G_apply (x : SX.Idx → EReal) (s : IVec SS 32) (w : SW.Idx → EReal) (b : Fin 256) (d : Fin 270) (t : Fin 1024) :
    G x s w (ix3 b d t) = ∑ k : Fin 270, w (ix3 (subj s b) k d) * x (ix3 b k t) := rfl

end Cert.SubjectLayers

end
-- ==== Proof.KernelIdealValue.lean ====
/-
  The kernel's result array. Grid point `t` handles batch entries `2t` and `2t + 1`: for each it copies the padded weight
  table's row at the entry's table word into a slot of its scratch, cuts the slot back to the real 270 × 270 matrix, and
  contracts it with the entry's signal over the input channel. So the block point `t` writes back is rows `2t`, `2t + 1` of
  `out[b, d, t'] = ∑ c, weights[subject b, c, d] · x[b, c, t']`: the table word is the subject word (clipping a label changes
  nothing), the padded table inside the real extents is the table, and the 128 blocks tile the result array.
-/
import proofs.«400421_j5626407158064_3_alg».proof.Proof.KernelIdealFrame
import proofs.«400421_j5626407158064_3_alg».proof.Proof.KernelIdealHyps
import proofs.«400421_j5626407158064_3_alg».proof.Proof.KernelIdealSlots
import proofs.«400421_j5626407158064_3_alg».proof.Proof.KernelIdealPay
import proofs.«400421_j5626407158064_3_alg».proof.Proof.KernelIdealCopies
import proofs.«400421_j5626407158064_3_alg».proof.Proof.Spec
import Idealize.ShloMosaic.Lib.Pipeline.Value
import Idealize.ShloMosaic.Lib.KernelVsHost
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.GenP Cert.SubjectLayers

/-- The weight-table row a table word names: the word as a natural number, capped at the last row. -/
def rowOf (w : BitVec 32) : Fin 128 := ⟨min w.toNat 127, by omega⟩

/-- What one point leaves in its output block, from the point's signal block `x0`, the padded weight table `wp` and the
    two rows `r0`, `r1` its table words name: entry `(p, d, t')` is row `r_p`'s matrix contracted with signal `p`. -/
def blockOut (x0 : S2x270x1024.Idx → EReal) (wp : S128x272x384.Idx → EReal) (r0 r1 : Fin 128) : S2x270x1024.Idx → EReal :=
  fun y => ∑ k : Fin 270, wp (ix3 (if (y 0).val = 0 then r0 else r1) (⟨k.val, by omega⟩ : Fin 272)
      (⟨(y 1).val, Nat.lt_trans (y 1).isLt (by decide)⟩ : Fin 384)) * x0 (ix3 (y 0) k (y 2))

variable (m : (ℓ : Loc nD τ sig) → Buf (Elt Ideal) ℓ) (ρ : Dev nD → PrngReg)

/-- The printed index maps over the grid: both windows' block at point `t` is block `(t, 0, 0)`. -/
theorem tr0 : ∀ t : Fin grid0.N, cc0_transform_0 (grid0.coords t) = ![t.val, 0, 0] := by decide +kernel
theorem tr2 : ∀ t : Fin grid0.N, cc0_transform_2 (grid0.coords t) = ![t.val, 0, 0] := by decide +kernel
theorem coord0 : ∀ t : Fin grid0.N, (grid0.coords t 0).val = t.val := by decide +kernel

/-- The padded weight table the body copies from, as an array of its literal shape. -/
abbrev asTable (c : Dev nD) (fh0 : HbBuf0 (F := Ideal) c hbM0_0) : S128x272x384.Idx → Elt Ideal .f32 := fh0

variable {m}

/-- A load of one batch entry of the signal block reads the block there. -/
theorem load_x (arg2 : Memref sig .tc .vmem S2x270x1024 .f32) (harg2 : arg2.IsWhole) (x0 : Vec Ideal S2x270x1024 .f32) (p : Fin 2)
    (inb : ∀ a, (![p.val, 0, 0] : Fin 3 → Nat) a + S1x270x1024.size a ≤ S2x270x1024.size a) (k : Fin 270) (t : Fin 1024) :
    arg2.view.readAt (Elt Ideal) (Rect.unit (s := S2x270x1024) ![p.val, 0, 0] S1x270x1024.size inb).toLoadRect (harg2.unread x0) (ix3 (0 : Fin 1) k t)
      = x0 (ix3 p k t) := by
  rw [View.readAt_apply, harg2.read_unread]
  refine congrArg x0 (funext fun a => Fin.ext ?_)
  match a with
  | ⟨0, _⟩ => show p.val + 1 * 0 = p.val; omega
  | ⟨1, _⟩ => show 0 + 1 * k.val = k.val; omega
  | ⟨2, _⟩ => show 0 + 1 * t.val = t.val; omega

/-- The first store's payload: entry 0's signal contracted with the row the first table word names. -/
theorem piece0 (c : Dev nD) (i : grid0.Coords) (arg2 : Memref sig .tc .vmem S2x270x1024 .f32) (harg2 : arg2.IsWhole) (arg4 : Memref sig .tc .vmem S2x270x1024 .f32) (harg4 : arg4.IsWhole) (arg5 : Memref sig .tc .vmem S2x272x384 .f32) (harg5 : arg5.IsWhole)
    (x0 : Vec Ideal S2x270x1024 .f32) (xt0 : TbBuf0 (F := Ideal) c tbM0_0) (fh0 : HbBuf0 (F := Ideal) c hbM0_0) (k0_hw1 : k0_chk1 (tbM0_0.view.readAt (Elt Ideal) (Rect.unit (s := S256) (k0_off1 i) S1.size (k0_off1_inb i)).toLoadRect xt0 (Shape.Idx.first (numel1_S1.symm ▸ Nat.one_pos)))) (k0_hw2 : k0_chk2 (tbM0_0.view.readAt (Elt Ideal) (Rect.unit (s := S256) (k0_off3 i) S1.size (k0_off3_inb i)).toLoadRect xt0 (Shape.Idx.first (numel1_S1.symm ▸ Nat.one_pos))))
    (hl0 : (kernelRun0_A.sl.r c i xt0).toNat < 128) (d : Fin 270) (t : Fin 1024) :
    k0_pay1 (F := Ideal) (kernelRun0_A.sl.r_2 c arg2 harg2 x0) (kernelRun0_A.sl.v28 c i arg5 xt0 fh0 k0_hw1 k0_hw2 arg5.view.junk) (ix3 (0 : Fin 1) d t)
      = ∑ k : Fin 270, asTable c fh0 (ix3 (⟨(kernelRun0_A.sl.r c i xt0).toNat, hl0⟩ : Fin 128) (⟨k.val, Nat.lt_trans k.isLt (by decide)⟩ : Fin 272) (⟨d.val, Nat.lt_trans d.isLt (by decide)⟩ : Fin 384))
          * x0 (ix3 (0 : Fin 2) k t) := by
  rw [Pay.pay1_apply]
  refine Finset.sum_congr rfl fun k _ => ?_
  rw [Slots.v28_apply, Copies.dma1_apply c i xt0 fh0 k0_hw1 _ _ hl0]
  refine congrArg _ ?_
  unfold kernelRun0_A.sl.r_2
  rw [Pay.pay3_apply]
  exact load_x arg2 harg2 x0 0 _ k t

/-- The second store's payload: entry 1's signal contracted with the row the second table word names. -/
theorem piece1 (c : Dev nD) (i : grid0.Coords) (arg2 : Memref sig .tc .vmem S2x270x1024 .f32) (harg2 : arg2.IsWhole) (arg4 : Memref sig .tc .vmem S2x270x1024 .f32) (harg4 : arg4.IsWhole) (arg5 : Memref sig .tc .vmem S2x272x384 .f32) (harg5 : arg5.IsWhole)
    (x0 : Vec Ideal S2x270x1024 .f32) (xt0 : TbBuf0 (F := Ideal) c tbM0_0) (fh0 : HbBuf0 (F := Ideal) c hbM0_0) (k0_hw1 : k0_chk1 (tbM0_0.view.readAt (Elt Ideal) (Rect.unit (s := S256) (k0_off1 i) S1.size (k0_off1_inb i)).toLoadRect xt0 (Shape.Idx.first (numel1_S1.symm ▸ Nat.one_pos)))) (k0_hw2 : k0_chk2 (tbM0_0.view.readAt (Elt Ideal) (Rect.unit (s := S256) (k0_off3 i) S1.size (k0_off3_inb i)).toLoadRect xt0 (Shape.Idx.first (numel1_S1.symm ▸ Nat.one_pos))))
    (hl1 : (kernelRun0_A.sl.r_1 c i xt0).toNat < 128) (d : Fin 270) (t : Fin 1024) :
    k0_pay2 (F := Ideal) (arg2.view.readAt (Elt Ideal) (Rect.unit (s := S2x270x1024) ![1, 0, 0] S1x270x1024.size inb_S2x270x1024_S1x270x1024_1_0_0).toLoadRect (harg2.unread x0))
        (kernelRun0_A.sl.v45 c i arg5 xt0 fh0 k0_hw1 k0_hw2 arg5.view.junk) (ix3 (0 : Fin 1) d t)
      = ∑ k : Fin 270, asTable c fh0 (ix3 (⟨(kernelRun0_A.sl.r_1 c i xt0).toNat, hl1⟩ : Fin 128) (⟨k.val, Nat.lt_trans k.isLt (by decide)⟩ : Fin 272) (⟨d.val, Nat.lt_trans d.isLt (by decide)⟩ : Fin 384))
          * x0 (ix3 (1 : Fin 2) k t) := by
  rw [Pay.pay2_apply]
  refine Finset.sum_congr rfl fun k _ => ?_
  rw [Slots.v45_apply, Copies.dma2_apply c i xt0 fh0 k0_hw2 _ _ hl1]
  refine congrArg _ ?_
  exact load_x arg2 harg2 x0 1 _ k t

/-- A table word below 128 names its own row. -/
theorem rowOf_eq (w : BitVec 32) (h : w.toNat < 128) : rowOf w = ⟨w.toNat, h⟩ :=
  Fin.ext (by unfold rowOf; show min w.toNat 127 = w.toNat; omega)

/-- Entry `(0, d, t)` of batch entry `p`'s part of the block is the block's entry `(p, d, t)`. -/
theorem emb_piece (p : Fin 2) (off : Fin 3 → Nat) (h0 : off 0 = p.val) (h1 : off 1 = 0) (h2 : off 2 = 0)
    (inb : ∀ a, off a + S1x270x1024.size a ≤ S2x270x1024.size a) (d : Fin 270) (t : Fin 1024) :
    (Rect.unit (s := S2x270x1024) off S1x270x1024.size inb).emb (ix3 (0 : Fin 1) d t) = ix3 p d t := by
  funext a
  apply Fin.ext
  match a with
  | ⟨0, _⟩ => show off 0 + 1 * 0 = p.val; omega
  | ⟨1, _⟩ => show off 1 + 1 * d.val = d.val; omega
  | ⟨2, _⟩ => show off 2 + 1 * t.val = t.val; omega

/-- What one run of the body leaves in the output block: `blockOut` of its signal block, the padded table and the rows its
    two table words name. -/
theorem out_eq (c : Dev nD) (i : grid0.Coords) (arg2 : Memref sig .tc .vmem S2x270x1024 .f32) (harg2 : arg2.IsWhole) (arg4 : Memref sig .tc .vmem S2x270x1024 .f32) (harg4 : arg4.IsWhole) (arg5 : Memref sig .tc .vmem S2x272x384 .f32) (harg5 : arg5.IsWhole)
    (x0 : Vec Ideal S2x270x1024 .f32) (xt0 : TbBuf0 (F := Ideal) c tbM0_0) (fh0 : HbBuf0 (F := Ideal) c hbM0_0) (k0_hw1 : k0_chk1 (tbM0_0.view.readAt (Elt Ideal) (Rect.unit (s := S256) (k0_off1 i) S1.size (k0_off1_inb i)).toLoadRect xt0 (Shape.Idx.first (numel1_S1.symm ▸ Nat.one_pos)))) (k0_hw2 : k0_chk2 (tbM0_0.view.readAt (Elt Ideal) (Rect.unit (s := S256) (k0_off3 i) S1.size (k0_off3_inb i)).toLoadRect xt0 (Shape.Idx.first (numel1_S1.symm ▸ Nat.one_pos)))) :
    out0_A_1 c i arg2 harg2 arg4 harg4 arg5 harg5 x0 xt0 fh0 k0_hw1 k0_hw2
      = blockOut x0 (asTable c fh0)
          (rowOf ((xt0 : IVec S256 32) (ix1 (⟨2 * (i 0).val, by have h : (i 0).val < 128 := (i 0).isLt; omega⟩ : Fin 256))))
          (rowOf ((xt0 : IVec S256 32) (ix1 (⟨2 * (i 0).val + 1, by have h : (i 0).val < 128 := (i 0).isLt; omega⟩ : Fin 256)))) := by
  have hl0 : (kernelRun0_A.sl.r c i xt0).toNat < 128 := Nat.lt_of_succ_le (k0_hw1 0)
  have hl1 : (kernelRun0_A.sl.r_1 c i xt0).toNat < 128 := Nat.lt_of_succ_le (k0_hw2 0)
  have e0 := Copies.word0 c i xt0
  have e1 := Copies.word1 c i xt0
  rw [← e0, ← e1, rowOf_eq _ hl0, rowOf_eq _ hl1]
  funext y
  unfold out0_A_1
  rw [View.read_writes_eq_canon _ _ _ (cover0_A_1 c i arg2 harg2 arg4 harg4 arg5 harg5 x0 xt0 fh0 k0_hw1 k0_hw2)]
  refine View.canon_apply_of_pieces _ _ ?_ y (cover0_A_1 c i arg2 harg2 arg4 harg4 arg5 harg5 x0 xt0 fh0 k0_hw1 k0_hw2 y)
  unfold kernelRun0_A
  dsimp only
  intro p hp x
  rcases List.mem_cons.mp hp with rfl | hp
  · obtain ⟨q, d, t, rfl⟩ : ∃ (q : Fin 1) (d : Fin 270) (t : Fin 1024), x = ix3 q d t := ⟨x 0, x 1, x 2, eq_ix3 x⟩
    obtain rfl : q = 0 := Subsingleton.elim _ _
    refine (piece1 c i arg2 harg2 arg4 harg4 arg5 harg5 x0 xt0 fh0 k0_hw1 k0_hw2 hl1 d t).trans ?_
    show _ = blockOut x0 (asTable c fh0) _ _ ((Rect.unit (s := S2x270x1024) ![1, 0, 0] S1x270x1024.size inb_S2x270x1024_S1x270x1024_1_0_0).emb (ix3 (0 : Fin 1) d t))
    rw [emb_piece 1 ![1, 0, 0] rfl rfl rfl inb_S2x270x1024_S1x270x1024_1_0_0 d t]
    rfl
  · obtain rfl := List.mem_singleton.mp hp
    obtain ⟨q, d, t, rfl⟩ : ∃ (q : Fin 1) (d : Fin 270) (t : Fin 1024), x = ix3 q d t := ⟨x 0, x 1, x 2, eq_ix3 x⟩
    obtain rfl : q = 0 := Subsingleton.elim _ _
    refine (piece0 c i arg2 harg2 arg4 harg4 arg5 harg5 x0 xt0 fh0 k0_hw1 k0_hw2 hl0 d t).trans ?_
    show _ = blockOut x0 (asTable c fh0) _ _ ((Rect.unit (s := S2x270x1024) ![0, 0, 0] S1x270x1024.size inb_S2x270x1024_S1x270x1024_0_0_0).emb (ix3 (0 : Fin 1) d t))
    rw [emb_piece 0 ![0, 0, 0] rfl rfl rfl inb_S2x270x1024_S1x270x1024_0_0_0 d t]
    rfl

variable (m)

/-- The result array's contents: the specification's function of the three argument arrays. -/
def Gfin (c : Dev nD) : Buf (Elt Ideal) ((c : Thread nD τ).loc main_v2) :=
  G (m ((c : Thread nD τ).loc main_arg0)) (m ((c : Thread nD τ).loc main_arg1)) (m ((c : Thread nD τ).loc main_arg2))

/-- Point `t`'s signal block as an array of its literal shape. -/
abbrev xblk (hO : Ok m) (c : Dev nD) (t : Fin (cfgM m hO).N) : Vec Ideal S2x270x1024 .f32 := iblk m hO c 0 t

/-- Point `t`'s signal block, entry `(p, k, t')`, is the signal's entry `(2t + p, k, t')`. -/
theorem xblk_apply (hO : Ok m) (c : Dev nD) (t : Fin (cfgM m hO).N) (p : Fin 2) (k : Fin 270) (t' : Fin 1024) :
    xblk m hO c t (ix3 p k t')
      = (m ((c : Thread nD τ).loc main_arg0) : S256x270x1024.Idx → EReal)
          (ix3 (⟨2 * t.val + p.val, by have h : t.val < 128 := t.isLt; have := p.isLt; omega⟩ : Fin 256) k t') := by
  unfold xblk iblk
  show V m c main_arg0 ((((cfgM m hO).win 0).blk t).view.emb (ix3 p k t')) = _
  rw [V_main_arg0]
  refine congrArg _ (funext fun a => Fin.ext ?_)
  have h0 := congrFun (tr0 t) 0
  have h1 := congrFun (tr0 t) 1
  have h2 := congrFun (tr0 t) 2
  match a with
  | ⟨0, _⟩ => show cc0_transform_0 (grid0.coords t) 0 * 2 + 1 * p.val = 2 * t.val + p.val; rw [h0]; show t.val * 2 + 1 * p.val = _; omega
  | ⟨1, _⟩ => show cc0_transform_0 (grid0.coords t) 1 * 270 + 1 * k.val = k.val; rw [h1]; show 0 * 270 + 1 * k.val = _; omega
  | ⟨2, _⟩ => show cc0_transform_0 (grid0.coords t) 2 * 1024 + 1 * t'.val = t'.val; rw [h2]; show 0 * 1024 + 1 * t'.val = _; omega

/-- Inside its real extents the padded table is the weight table. -/
theorem wpad_apply (c : Dev nD) (r : Fin 128) (k d : Fin 270) :
    asTable c (V m c main_v1) (ix3 r (⟨k.val, Nat.lt_trans k.isLt (by decide)⟩ : Fin 272) (⟨d.val, Nat.lt_trans d.isLt (by decide)⟩ : Fin 384))
      = (m ((c : Thread nD τ).loc main_arg2) : S128x270x270.Idx → Elt Ideal .f32) (ix3 r k d) := by
  show (V m c main_v1 : S128x272x384.Idx → Elt Ideal .f32) _ = _
  rw [Hyp.V_main_v1 m c]
  refine pad_apply_of_inside _ _ _ _ _ _ _ _ (ix3 r k d) fun a => ?_
  match a with
  | ⟨0, _⟩ => show r.val = 0 + r.val * (0 + 1); omega
  | ⟨1, _⟩ => show k.val = 0 + k.val * (0 + 1); omega
  | ⟨2, _⟩ => show d.val = 0 + d.val * (0 + 1); omega

/-- One entry of a block against the specification: with the table words the subject words, entry `(p, d, t')` of point
    `t`'s block is the specification at `(2t + p, d, t')`. -/
theorem block_eq (hO : Ok m) (t : Fin (cfgM m hO).N) (p : Fin 2) (d : Fin 270) (t' : Fin 1024)
    (h0 : 2 * (grid0.coords t 0).val < 256) (h1 : 2 * (grid0.coords t 0).val + 1 < 256) (hb : 2 * t.val + p.val < 256) :
    blockOut (xblk m hO 0 t) (asTable 0 (V m 0 main_v1))
        (rowOf ((m ((0 : Dev nD).tc.loc main_arg1) : IVec S256 32) (ix1 (⟨2 * (grid0.coords t 0).val, h0⟩ : Fin 256))))
        (rowOf ((m ((0 : Dev nD).tc.loc main_arg1) : IVec S256 32) (ix1 (⟨2 * (grid0.coords t 0).val + 1, h1⟩ : Fin 256))))
        (ix3 p d t')
      = Gfin m 0 (ix3 (⟨2 * t.val + p.val, hb⟩ : Fin 256) d t') := by
  have hc := coord0 t
  unfold Gfin
  rw [G_apply]
  show ∑ k : Fin 270, asTable 0 (V m 0 main_v1) (ix3 (if p.val = 0 then _ else _) (⟨k.val, Nat.lt_trans k.isLt (by decide)⟩ : Fin 272) (⟨d.val, Nat.lt_trans d.isLt (by decide)⟩ : Fin 384)) * xblk m hO 0 t (ix3 p k t') = _
  refine Finset.sum_congr rfl fun k _ => ?_
  rw [wpad_apply m 0 _ k d, xblk_apply m hO 0 t p k t']
  refine congrArg (· * _) (congrArg _ (congrArg (fun r => ix3 r k d) ?_))
  show _ = rowOf ((m ((0 : Dev nD).tc.loc main_arg1) : IVec S256 32) (ix1 (⟨2 * t.val + p.val, hb⟩ : Fin 256)))
  by_cases hp : p.val = 0
  · rw [if_pos hp]
    refine congrArg rowOf (congrArg _ (congrArg ix1 (Fin.ext ?_)))
    show 2 * (grid0.coords t 0).val = 2 * t.val + p.val
    omega
  · rw [if_neg hp]
    refine congrArg rowOf (congrArg _ (congrArg ix1 (Fin.ext ?_)))
    show 2 * (grid0.coords t 0).val + 1 = 2 * t.val + p.val
    have := p.isLt
    omega

/-- WHAT POINT `t` WRITES BACK is block `t` of the specification's function of the argument arrays. -/
theorem flushed_eq (hO : Ok m) (hH : Hyps m hO)
    (hs : ∀ b : Fin 256, ((m ((0 : Dev nD).tc.loc main_arg1) : IVec S256 32) (ix1 b)).toNat < 128)
    (c : Dev nD) (t : Fin (cfgM m hO).N) :
    (dats m hO hH 0 c).flushed 1 t = (((cfgM m hO).win 1).blk t).view.read (Elt Ideal) (Gfin m c) := by
  obtain rfl : c = 0 := Subsingleton.elim _ _
  show ((cfgM m hO).win 1).cut (grid0.coords t) ((dats m hO hH 0 0).after 1 t) = _
  rw [after0_1]
  unfold outsAt0
  have e := out_eq 0 (grid0.coords t) (ms0_0 m hO t) (hs0_0 m hO t) (ms0_1 m hO t) (hs0_1 m hO t) scM0_0 (Memref.isWhole_whole _)
    (xblk m hO 0 t) (tbl m 0) (V m 0 main_v1) (Hyps.c0 hH 0 t) (Hyps.c1 hH 0 t)
  refine funext fun (j : S2x270x1024.Idx) => ?_
  refine (congrFun e _).trans ?_
  have hT : t.val < 128 := t.isLt
  have hj0 : (j 0).val < 2 := (j 0).isLt
  have hj1 : (j 1).val < 270 := (j 1).isLt
  have hj2 : (j 2).val < 1024 := (j 2).isLt
  have hx : ((cfgM m hO).win 1).xinj (grid0.coords t) j = ix3 (⟨(j 0).val, hj0⟩ : Fin 2) (⟨(j 1).val, hj1⟩ : Fin 270) (⟨(j 2).val, hj2⟩ : Fin 1024) := by
    funext a
    match a with
    | ⟨0, _⟩ => rfl
    | ⟨1, _⟩ => rfl
    | ⟨2, _⟩ => rfl
  have h0 := congrFun (tr2 t) 0
  have h1 := congrFun (tr2 t) 1
  have h2 := congrFun (tr2 t) 2
  have hy : (((cfgM m hO).win 1).blk t).view.emb j = ix3 (⟨2 * t.val + (j 0).val, by omega⟩ : Fin 256) (⟨(j 1).val, hj1⟩ : Fin 270) (⟨(j 2).val, hj2⟩ : Fin 1024) := by
    funext a
    apply Fin.ext
    match a with
    | ⟨0, _⟩ => show cc0_transform_2 (grid0.coords t) 0 * 2 + 1 * (j 0).val = 2 * t.val + (j 0).val; rw [h0]; show t.val * 2 + 1 * (j 0).val = _; omega
    | ⟨1, _⟩ => show cc0_transform_2 (grid0.coords t) 1 * 270 + 1 * (j 1).val = (j 1).val; rw [h1]; show 0 * 270 + 1 * (j 1).val = _; omega
    | ⟨2, _⟩ => show cc0_transform_2 (grid0.coords t) 2 * 1024 + 1 * (j 2).val = (j 2).val; rw [h2]; show 0 * 1024 + 1 * (j 2).val = _; omega
  show blockOut _ _ _ _ (((cfgM m hO).win 1).xinj (grid0.coords t) j) = Gfin m 0 ((((cfgM m hO).win 1).blk t).view.emb j)
  rw [hx, hy, Hyp.tbl_eq m hs]
  exact block_eq m hO t _ _ _ _ _ _

/-- An index of the result array whose coordinates are in point `t`'s block's range on every axis is in the block. -/
theorem mem_blk (hO : Ok m) (t : Fin (cfgM m hO).N) (i : S256x270x1024.Idx)
    (h : ∀ a : Fin 3, cc0_transform_2 (grid0.coords t) a * S2x270x1024.size a ≤ (i a).val
      ∧ (i a).val < cc0_transform_2 (grid0.coords t) a * S2x270x1024.size a + S2x270x1024.size a) :
    i ∈ (((cfgM m hO).win 1).blk t).view.set := by
  show i ∈ ((((cfgM m hO).win 1).arr.view).slice (((cfgM m hO).win 1).rect t)).set
  rw [View.set_slice]
  exact Finset.mem_map.mpr ⟨i, Rect.mem_set_unit.mpr h, rfl⟩

/-- The 128 blocks tile the result array: row `b` is in point `b / 2`'s. -/
theorem cover (hO : Ok m) (i : S256x270x1024.Idx) :
    ∃ t : Fin (cfgM m hO).N, ((cfgM m hO).win 1).flush t = true ∧ i ∈ (((cfgM m hO).win 1).blk t).view.set := by
  have hi0 : (i 0).val < 256 := (i 0).isLt
  have hi1 : (i 1).val < 270 := (i 1).isLt
  have hi2 : (i 2).val < 1024 := (i 2).isLt
  have hN : (i 0).val / 2 < grid0.N := by rw [N_0]; omega
  refine ⟨⟨(i 0).val / 2, hN⟩, flush0_1 (adm m hO) _, ?_⟩
  refine mem_blk m hO _ i ?_
  have h0 := congrFun (tr2 ⟨(i 0).val / 2, hN⟩) 0
  have h1 := congrFun (tr2 ⟨(i 0).val / 2, hN⟩) 1
  have h2 := congrFun (tr2 ⟨(i 0).val / 2, hN⟩) 2
  intro a
  match a with
  | ⟨0, _⟩ => show cc0_transform_2 (grid0.coords ⟨(i 0).val / 2, hN⟩) 0 * 2 ≤ (i 0).val ∧ (i 0).val < cc0_transform_2 (grid0.coords ⟨(i 0).val / 2, hN⟩) 0 * 2 + 2
              rw [h0]; show (i 0).val / 2 * 2 ≤ (i 0).val ∧ (i 0).val < (i 0).val / 2 * 2 + 2; omega
  | ⟨1, _⟩ => show cc0_transform_2 (grid0.coords ⟨(i 0).val / 2, hN⟩) 1 * 270 ≤ (i 1).val ∧ (i 1).val < cc0_transform_2 (grid0.coords ⟨(i 0).val / 2, hN⟩) 1 * 270 + 270
              rw [h1]; show 0 * 270 ≤ (i 1).val ∧ (i 1).val < 0 * 270 + 270; omega
  | ⟨2, _⟩ => show cc0_transform_2 (grid0.coords ⟨(i 0).val / 2, hN⟩) 2 * 1024 ≤ (i 2).val ∧ (i 2).val < cc0_transform_2 (grid0.coords ⟨(i 0).val / 2, hN⟩) 2 * 1024 + 1024
              rw [h2]; show 0 * 1024 ≤ (i 2).val ∧ (i 2).val < 0 * 1024 + 1024; omega

/-- THE RESULT ARRAY after the run: the specification's function of the argument arrays. -/
theorem final (hO : Ok m) (hH : Hyps m hO)
    (hs : ∀ b : Fin 256, ((m ((0 : Dev nD).tc.loc main_arg1) : IVec S256 32) (ix1 b)).toNat < 128) (c : Dev nD) :
    (dats m hO hH 0 c).arrAt 1 (cfgM m hO).N = Gfin m c :=
  (dats m hO hH 0 c).arrAt_eq_of_cover 1 (Gfin m c) (fun t _ => flushed_eq m hO hH hs c t) (fun i => cover m hO i)

/-- The frame run, read: the result array at the specification's function of the arguments, the arguments unchanged. -/
theorem run (hO : Ok m) (hH : Hyps m hO)
    (hs : ∀ b : Fin 256, ((m ((0 : Dev nD).tc.loc main_arg1) : IVec S256 32) (ix1 b)).toNat < 128) :
    θ_run defs (onTc (τ := τ) (main (F := Ideal))) ⟨m, fun _ => 0, ρ⟩ fun r => ∀ c : Dev nD,
      r.2.mem ((c.tc : Thread nD τ).loc main_v2) = Gfin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 1).trans (final m hO hH hs c),
      ((h c).1 0).trans (((dats m hO hH 0 c).arrAt_in 0 rfl _).trans ((A_eq m hO hH c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO hH)

end Cert.KernelIdeal.KValue

end
-- ==== Proof.RefValue.lean ====
/-
  The reference's result is the specification's function of the arguments.

  The reference gathers, for each batch entry, the weight matrix its subject word names, and contracts it with the
  entry's signal over the input channel. First the gather read at an index, for these dimension numbers: the table at
  the start index read signed and clamped into the table. Then the start index: the program adds 128 to a negative
  word and keeps a non-negative one, and a label (a word below 128) is non-negative, so the start index is the word and
  the clamp leaves it. Last the contraction, summand by summand.
-/
import proofs.«400421_j5626407158064_3_alg».proof.Defs
import proofs.«400421_j5626407158064_3_alg».proof.Proof.Gen.ReferenceIdeal.Run
import proofs.«400421_j5626407158064_3_alg».proof.Proof.Gen.ReferenceIdeal.Read
import proofs.«400421_j5626407158064_3_alg».proof.Proof.Spec
import Idealize.ShloMosaic.Lib.StableHlo.Predicate

noncomputable section

open scoped BigOperators

namespace Cert.ReferenceIdeal.RefValue

open Idealize.ShloMosaic Idealize.ShloMosaic.ValueIdx

/-! ## A gather of whole matrices out of a table, read at an index

The table is `[128, 270, 270]`, the start indices a `[256, 1]` column, the result `[256, 270, 270]`: the table's first axis is
collapsed and start-indexed (slice size 1), its other two axes are the result's offset axes, whole. Result element
`(b, c, d)` is the table at `(r, c, d)`, `r` the start index `idx[b, 0]` read signed and clamped into `[0, 127]`. -/

section Rows
variable {α : Type}

/-- Those dimension numbers; their conditions `wf` are decided on the literal shapes. -/
abbrev rowsDims (wf : GatherDims.WF ⟨3, ![128, 270, 270]⟩ ⟨2, ![256, 1]⟩ ⟨3, ![256, 270, 270]⟩ [1, 2] [0] [] [0] [] 1 ![1, 270, 270]) :
    GatherDims ⟨3, ![128, 270, 270]⟩ ⟨2, ![256, 1]⟩ ⟨3, ![256, 270, 270]⟩ where
  offsetDims := [1, 2]
  collapsedSliceDims := [0]
  operandBatchingDims := []
  startIndicesBatchingDims := []
  startIndexMap := [0]
  indexVectorDim := 1
  sliceSizes := ![1, 270, 270]
  wf := wf

/-- The gather read at `(b, c, d)`: the table at the row the start index `idx[b, 0]` names, read signed and clamped into
    `[0, 127]`, and at the same `(c, d)`. -/
theorem gather_rows_apply {w : Nat}
    (wf : GatherDims.WF ⟨3, ![128, 270, 270]⟩ ⟨2, ![256, 1]⟩ ⟨3, ![256, 270, 270]⟩ [1, 2] [0] [] [0] [] 1 ![1, 270, 270])
    (x : (⟨3, ![128, 270, 270]⟩ : Shape).Idx → α) (idx : IVec ⟨2, ![256, 1]⟩ w) (j : (⟨3, ![256, 270, 270]⟩ : Shape).Idx) :
    Host.gather (rowsDims wf) x idx j
      = x (ix3 (⟨min (idx (ix2 (j 0) (0 : Fin 1))).toInt.toNat 127, by omega⟩ : Fin 128) (j 1) (j 2)) := by
  unfold Host.gather
  congr 1
  funext a
  refine Fin.ext ?_
  match a with
  | ⟨0, _⟩ =>
    show (rowsDims wf).start j idx 0 + (rowsDims wf).batchCoord j 0 + (rowsDims wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims wf).startIndexMap from List.mem_singleton.mpr rfl)]
    have hsi : (rowsDims wf).siIdx j ⟨List.idxOf (0 : Fin 3) (rowsDims wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (rowsDims wf).start j idx 1 + (rowsDims wf).batchCoord j 1 + (rowsDims wf).offCoord j 1 = (j 1).val
    rw [GatherDims.batchCoord_eq_zero _ _ _ List.not_mem_nil]
    unfold GatherDims.start
    rw [dif_neg (show ¬ (1 : Fin 3) ∈ (rowsDims wf).startIndexMap from (by decide : ¬ (1 : Fin 3) ∈ ([0] : List (Fin 3))))]
    unfold GatherDims.offCoord
    rw [dif_pos ((GatherDims.mem_sKept (rowsDims wf) 1).mpr ⟨(by decide : ¬ (1 : Fin 3) ∈ ([0] : List (Fin 3))), List.not_mem_nil⟩)]
    simp only [Nat.add_zero, Nat.zero_add]
    rfl
  | ⟨2, _⟩ =>
    show (rowsDims wf).start j idx 2 + (rowsDims wf).batchCoord j 2 + (rowsDims wf).offCoord j 2 = (j 2).val
    rw [GatherDims.batchCoord_eq_zero _ _ _ List.not_mem_nil]
    unfold GatherDims.start
    rw [dif_neg (show ¬ (2 : Fin 3) ∈ (rowsDims wf).startIndexMap from (by decide : ¬ (2 : Fin 3) ∈ ([0] : List (Fin 3))))]
    unfold GatherDims.offCoord
    rw [dif_pos ((GatherDims.mem_sKept (rowsDims wf) 2).mpr ⟨(by decide : ¬ (2 : Fin 3) ∈ ([0] : List (Fin 3))), List.not_mem_nil⟩)]
    simp only [Nat.add_zero, Nat.zero_add]
    rfl

end Rows

/-! ## Words: a label below 128 is a non-negative signed number -/

section Words
open Idealize.ShloMosaic.StableHlo.Predicate

/-- A word below 128 is not negative: the signed comparison with zero answers the bit 0. -/
theorem slt_zero_of_small (a : BitVec 32) (ha : a.toNat < 128) : IntOp.cmpi .slt a 0#32 = 0#1 := by
  apply eq_zero_of_ne_one
  intro h1
  have h0 : (0#32 : BitVec 32).toNat < 2 ^ 31 := by show (0 : ℕ) < 2 ^ 31; omega
  have hlt := (slt_iff_toNat (a := a) (b := 0#32) (by omega) h0).mp h1
  exact Nat.not_lt_zero _ hlt

/-- A word below 128 reads the same signed and unsigned. -/
theorem toInt_toNat_of_small (a : BitVec 32) (ha : a.toNat < 128) : a.toInt.toNat = a.toNat := by
  rw [toInt_eq_toNat_of_lt (by omega)]
  exact Int.toNat_natCast _

end Words

/-! ## The reference, one result element at a time -/

section Chain
open Cert.ReferenceIdeal Cert.ReferenceIdeal.Read

/-- Row `b` of the start-index column is entry `b` of the vector it broadcasts. -/
theorem idx_v5 (b : Fin 256) : idx_main_v5 (ix2 b (0 : Fin 1)) = ix1 b := by
  funext a
  match a with
  | ⟨0, _⟩ => rfl

/-- The start index of batch entry `b`: a subject word that is a label is not negative, so the wrap-around select keeps
    it. -/
theorem start_word (x1 : (⟨S256, .i32⟩ : BufTy).Contents (Elt Ideal)) (b : Fin 256) (hb : (x1 (ix1 b)).toNat < 128) :
    val_main_v5 (F := Ideal) x1 (ix2 b (0 : Fin 1)) = x1 (ix1 b) := by
  rw [val_main_v5_apply, idx_v5, val_main_v4_apply, val_main_v1_apply, val_main_v0_apply, val_main_c_apply,
    slt_zero_of_small _ hb, select_zero]

/-- The gathered table at `j`: the weight table at the clamped start index of `j`'s batch entry. -/
theorem v6_apply (x1 : (⟨S256, .i32⟩ : BufTy).Contents (Elt Ideal)) (x2 : (⟨S128x270x270, .f32⟩ : BufTy).Contents (Elt Ideal))
    (j : S256x270x270.Idx) :
    val_main_v6 (F := Ideal) x1 x2 j
      = x2 (ix3 (⟨min (val_main_v5 (F := Ideal) x1 (ix2 (j 0) (0 : Fin 1))).toInt.toNat 127, by omega⟩ : Fin 128) (j 1) (j 2)) := by
  unfold val_main_v6
  exact gather_rows_apply Cert.ReferenceIdeal.Gen.gather_S128x270x270_S256x1_S256x270x270_12_0_n_n_0_1_1270270_wf x2
    (val_main_v5 (F := Ideal) x1) j

/-- The gathered table at `(b, c, d)` is the subject's matrix at `(c, d)`. -/
theorem v6_at (x1 : (⟨S256, .i32⟩ : BufTy).Contents (Elt Ideal)) (x2 : (⟨S128x270x270, .f32⟩ : BufTy).Contents (Elt Ideal))
    (b : Fin 256) (c d : Fin 270) (hb : (x1 (ix1 b)).toNat < 128) :
    val_main_v6 (F := Ideal) x1 x2 (ix3 b c d) = x2 (ix3 (Cert.SubjectLayers.subj x1 b) c d) := by
  have e : (⟨min (val_main_v5 (F := Ideal) x1 (ix2 b (0 : Fin 1))).toInt.toNat 127, by omega⟩ : Fin 128)
      = Cert.SubjectLayers.subj x1 b := by
    apply Fin.ext
    show min (val_main_v5 (F := Ideal) x1 (ix2 b (0 : Fin 1))).toInt.toNat 127 = min (x1 (ix1 b)).toNat 127
    rw [start_word x1 b hb, toInt_toNat_of_small _ hb]
  rw [v6_apply]
  exact congrArg (fun r => x2 (ix3 r c d)) e

/-- The contraction's left index at `(b, d, t)` and channel `k` is `(b, k, d)`. -/
theorem lidx_at (b : Fin 256) (d : Fin 270) (t : Fin 1024) (k : Fin 270) :
    lidx_main_v7 (ix3 b d t) k = ix3 b k d := by
  funext a
  match a with
  | ⟨0, _⟩ => rfl
  | ⟨1, _⟩ => rfl
  | ⟨2, _⟩ => rfl

/-- The contraction's right index at `(b, d, t)` and channel `k` is `(b, k, t)`. -/
theorem ridx_at (b : Fin 256) (d : Fin 270) (t : Fin 1024) (k : Fin 270) :
    ridx_main_v7 (ix3 b d t) k = ix3 b k t := by
  funext a
  match a with
  | ⟨0, _⟩ => rfl
  | ⟨1, _⟩ => rfl
  | ⟨2, _⟩ => rfl

end Chain

/-- THE REFERENCE'S VALUE: where every subject word is a label, the reference's result is the specification's function of
    the arguments. -/
theorem ref_eq
    (x0 : (⟨Cert.ReferenceIdeal.S256x270x1024, .f32⟩ : BufTy).Contents (Elt Ideal))
    (x1 : (⟨Cert.ReferenceIdeal.S256, .i32⟩ : BufTy).Contents (Elt Ideal))
    (x2 : (⟨Cert.ReferenceIdeal.S128x270x270, .f32⟩ : BufTy).Contents (Elt Ideal))
    (h : ∀ b : Fin 256, (x1 (ix1 b)).toNat < 128) :
    Cert.ReferenceIdeal.Read.val_main_v7 (F := Ideal) x0 x1 x2 = Cert.SubjectLayers.G x0 x1 x2 := by
  funext j
  obtain ⟨b, d, t, rfl⟩ : ∃ b d t, j = ix3 b d t := ⟨j 0, j 1, j 2, eq_ix3 j⟩
  rw [Cert.ReferenceIdeal.Read.val_main_v7_apply]
  refine Eq.trans ?_ (Cert.SubjectLayers.G_apply x0 x1 x2 b d t).symm
  refine Finset.sum_congr rfl fun k _ => ?_
  rw [lidx_at, ridx_at, v6_at x1 x2 b k d (h b)]

end Cert.ReferenceIdeal.RefValue

end
-- ==== Proof.lean ====
/-
  The certificate's claims. The kernel computes, for each of 256 batch entries, the contraction over the input channel of the
  entry's subject's 270 × 270 weight matrix with the entry's signal; the reference gathers the subjects' matrices and
  contracts them with the signals in one batched product. Under the precondition — every float finite, every subject word
  a label in [0, 128) — both results are the one function `Cert.SubjectLayers.G` of the argument arrays over the extended
  reals: clipping a label to [0, 127] (the kernel) and normalising a non-negative index (the reference) both leave it as
  it is, zero padding beyond the real extents never enters the sum, and the two sums range over the same channel index.
  The frames hold because every table word the kernel's body reads is a label, so the row it copies lies inside the table.
-/
import proofs.«400421_j5626407158064_3_alg».proof.Defs
import proofs.«400421_j5626407158064_3_alg».proof.Proof.Gen.Kernel
import proofs.«400421_j5626407158064_3_alg».proof.Proof.Gen.KernelIdeal
import proofs.«400421_j5626407158064_3_alg».proof.Proof.Gen.ReferenceIdeal
import proofs.«400421_j5626407158064_3_alg».proof.Proof.Gen.ReferenceIdeal.Run
import proofs.«400421_j5626407158064_3_alg».proof.Proof.Gen.ReferenceIdeal.Read
import proofs.«400421_j5626407158064_3_alg».proof.Proof.Gen.Pre_finite_inputs
import proofs.«400421_j5626407158064_3_alg».proof.Proof.PreFacts
import proofs.«400421_j5626407158064_3_alg».proof.Proof.KernelFrame
import proofs.«400421_j5626407158064_3_alg».proof.Proof.KernelHyps
import proofs.«400421_j5626407158064_3_alg».proof.Proof.KernelIdealFrame
import proofs.«400421_j5626407158064_3_alg».proof.Proof.KernelIdealHyps
import proofs.«400421_j5626407158064_3_alg».proof.Proof.KernelIdealValue
import proofs.«400421_j5626407158064_3_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and keeps its arguments: its table words are labels, so the rows it copies are in range. -/
theorem frame_k : Cert.frame_Kernel := fun m ρ h =>
  have hs : ∀ b : Fin 256, ((m ((0 : Dev Cert.Kernel.nD).tc.loc Cert.Kernel.main_arg1) : IVec Cert.Kernel.S256 32) (ix1 b)).toNat < 128 :=
    fun b => Cert.PreFacts.subj_lt _ _ _ (h 0) b
  Cert.Kernel.GenP.frame m ρ trivial (Cert.Kernel.Hyp.hyps_of_pre m trivial hs)

/-- The idealized kernel likewise. -/
theorem frame_ki : Cert.frame_KernelIdeal := fun m ρ h =>
  have hs : ∀ b : Fin 256, ((m ((0 : Dev Cert.KernelIdeal.nD).tc.loc Cert.KernelIdeal.main_arg1) : IVec Cert.KernelIdeal.S256 32) (ix1 b)).toNat < 128 :=
    fun b => Cert.PreFacts.subj_lt _ _ _ (h 0) b
  Cert.KernelIdeal.GenP.frame m ρ trivial (Cert.KernelIdeal.Hyp.hyps_of_pre m trivial hs)

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification's function of the arguments they agree on. -/
theorem algebraic : Cert.algebraic_KernelIdeal_ReferenceIdeal := by
  intro m ρ m' ρ' hpre hagree
  have hs : ∀ b : Fin 256, ((m ((0 : Dev Cert.KernelIdeal.nD).tc.loc Cert.KernelIdeal.main_arg1) : IVec Cert.KernelIdeal.S256 32) (ix1 b)).toNat < 128 :=
    fun b => Cert.PreFacts.subj_lt _ _ _ (hpre 0) b
  refine ⟨fun c => Cert.KernelIdeal.KValue.Gfin m c,
    Cert.KernelIdeal.KValue.run m ρ trivial (Cert.KernelIdeal.Hyp.hyps_of_pre m trivial hs) hs, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v7_eq, (hagree 0).1, (hagree 0).2.1, (hagree 0).2.2]
  exact Cert.ReferenceIdeal.RefValue.ref_eq _ _ _ hs

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
